-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "coeff_times_2_over_n" .f32 0x360637BD#32 ((13421773 / 6710886400000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S100000x1 : Shape := ⟨2, ![100000, 1]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg2 : IVec S2x1600000 32) (main_v13 : IVec S_ 1) (main_v15 : IVec S2x1600000 1) (main_c_5 : IVec S_ 32) : IVec S_ 1 :=
  let main_v16 : IVec S2x1600000 32 := broadcastInDim S2x1600000 ![] bcast_S_S2x1600000 main_c_5
  let main_v17 : IVec S2x1600000 1 := cmpi .slt main_arg2 main_v16
  let main_v18 : IVec S2x1600000 1 := andi main_v15 main_v17
  let main_c_6 : IVec S_ 1 := constantI S_ 1 1#1
  let main_v19 : IVec S_ 1 := (fun x v => Host.reduce IntOp.andi x v reducesTo_S2x1600000_S_d0_1 h_S_) main_v18 main_c_6
  let main_v20 : IVec S_ 1 := andi main_v13 main_v19
  main_v20

def fn {F : FTy → Type} [FloatOps F] (main_arg0 : FVec F S100000x48 .f32) (main_arg1 : FVec F S100000x48 .f32) (main_arg2 : IVec S2x1600000 32) (main_arg3 : FVec F S100000x1 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S100000x48 .f32 := Host.absf main_arg1
  let main_cst_0 : FVec F S_ .f32 := constant S_ .f32 0x7F800000#32
  let main_v5 : FVec F S100000x48 .f32 := broadcastInDim S100000x48 ![] bcast_S_S100000x48 main_cst_0
  let main_v6 : IVec S100000x48 1 := cmpf .olt main_v4 main_v5
  let main_c_1 : IVec S_ 1 := constantI S_ 1 1#1
  let main_v7 : IVec S_ 1 := (fun x v => Host.reduce IntOp.andi x v reducesTo_S100000x48_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg2 main_v14
  let main_c_5 : IVec S_ 32 := constantI S_ 32 100000#32
  fn_part1 (F := F) main_arg2 main_v13 main_v15 main_c_5
-- ==== Kernel.lean ====
abbrev S100000x48 : Shape := ⟨2, ![100000, 48]⟩
abbrev S2x1600000 : Shape := ⟨2, ![2, 1600000]⟩
abbrev S100000x1 : Shape := ⟨2, ![100000, 1]⟩
abbrev S1x1600000 : Shape := ⟨2, ![1, 1600000]⟩
abbrev S1600000 : Shape := ⟨1, ![1600000]⟩
abbrev S5000x48 : Shape := ⟨2, ![5000, 48]⟩
abbrev S5000x1 : Shape := ⟨2, ![5000, 1]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x48 : Shape := ⟨2, ![1600000, 48]⟩
abbrev S100000 : Shape := ⟨1, ![100000]⟩

abbrev nBuf : Space → Nat
  | .hbm => 76
  | .vmem => 18
  | .smem => 0
  | _ => 0

abbrev bufTy : (tb : Table) → Fin (tcTables nBuf tb) → BufTy
  | .hbm, ⟨0, _⟩ => ⟨S100000x48, .f32⟩
  | .hbm, ⟨1, _⟩ => ⟨S100000x48, .f32⟩
  | .hbm, ⟨2, _⟩ => ⟨S2x1600000, .i32⟩
  | .hbm, ⟨3, _⟩ => ⟨S100000x1, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x48, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000x48, .f32⟩
  | .hbm, ⟨28, _⟩ => ⟨S1600000x48, .i1⟩
  | .hbm, ⟨29, _⟩ => ⟨S_, .f32⟩
  | .hbm, ⟨30, _⟩ => ⟨S1600000x48, .f32⟩
  | .hbm, ⟨31, _⟩ => ⟨S1600000x48, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1, .i32⟩
  | .hbm, ⟨41, _⟩ => ⟨S_, .i32⟩
  | .hbm, ⟨42, _⟩ => ⟨S1600000x1, .i32⟩
  | .hbm, ⟨43, _⟩ => ⟨S1600000x1, .i1⟩
  | .hbm, ⟨44, _⟩ => ⟨S1x1, .i32⟩
  | .hbm, ⟨45, _⟩ => ⟨S1600000x1, .i32⟩
  | .hbm, ⟨46, _⟩ => ⟨S1600000x1, .i1⟩
  | .hbm, ⟨47, _⟩ => ⟨S1600000x1, .i1⟩
  | .hbm, ⟨48, _⟩ => ⟨S_, .i1⟩
  | .hbm, ⟨49, _⟩ => ⟨S1600000, .i1⟩
  | .hbm, ⟨50, _⟩ => ⟨S1600000x48, .f32⟩
  | .hbm, ⟨51, _⟩ => ⟨S1600000x48, .i1⟩
  | .hbm, ⟨52, _⟩ => ⟨S_, .f32⟩
  | .hbm, ⟨53, _⟩ => ⟨S1600000x48, .f32⟩
  | .hbm, ⟨54, _⟩ => ⟨S1600000x48, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S_, .f32⟩
  | .hbm, ⟨68, _⟩ => ⟨S100000x48, .f32⟩
  | .hbm, ⟨69, _⟩ => ⟨S1600000x1, .i32⟩
  | .hbm, ⟨70, _⟩ => ⟨S100000x48, .f32⟩
  | .hbm, ⟨71, _⟩ => ⟨S_, .f32⟩
  | .hbm, ⟨72, _⟩ => ⟨S100000x48, .f32⟩
  | .hbm, ⟨73, _⟩ => ⟨S1600000x1, .i32⟩
  | .hbm, ⟨74, _⟩ => ⟨S100000x48, .f32⟩
  | .hbm, ⟨75, _⟩ => ⟨S100000x48, .f32⟩
  | .local _ .vmem, ⟨0, _⟩ => ⟨S5000x48, .f32⟩
  | .local _ .vmem, ⟨1, _⟩ => ⟨S5000x48, .f32⟩
  | .local _ .vmem, ⟨2, _⟩ => ⟨S5000x1, .f32⟩
  | .local _ .vmem, ⟨3, _⟩ => ⟨S5000x1, .f32⟩
  | .local _ .vmem, ⟨4, _⟩ => ⟨S5000x48, .f32⟩
  | .local _ .vmem, ⟨5, _⟩ => ⟨S5000x48, .f32⟩
  | .local _ .vmem, ⟨6, _⟩ => ⟨S5000x48, .f32⟩
  | .local _ .vmem, ⟨7, _⟩ => ⟨S5000x48, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x48, .f32⟩
  | .local _ .vmem, ⟨13, _⟩ => ⟨S5000x48, .f32⟩
  | .local _ .vmem, ⟨14, _⟩ => ⟨S5000x48, .f32⟩
  | .local _ .vmem, ⟨15, _⟩ => ⟨S5000x48, .f32⟩
  | .local _ .vmem, ⟨16, _⟩ => ⟨S5000x48, .f32⟩
  | .local _ .vmem, ⟨17, _⟩ => ⟨S5000x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v6 : Ref sig .tc := ⟨.hbm, 54, rfl⟩
abbrev main_cst : Ref sig .tc := ⟨.hbm, 55, rfl⟩
abbrev main_v7 : Ref sig .tc := ⟨.hbm, 56, rfl⟩
abbrev main_cst_0 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_cst_2 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_cst_3 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x48 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x48_S5000x48_0_0 : ∀ a, (![0, 0] : Fin 2 → Nat) a + S5000x48.size a ≤ S5000x48.size a
  h_S5000x48 : 0 < S5000x48.numel
  inb_S5000x1_S5000x1_0_0 : ∀ a, (![0, 0] : Fin 2 → Nat) a + S5000x1.size a ≤ S5000x1.size a
  h_S5000x1 : 0 < S5000x1.numel
  broadcasts_S5000x1_S5000x48 : S5000x1.Broadcasts S5000x48
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x48_0 : S1600000.BroadcastsInDim S1600000x48 (![0] : Fin 1 → Fin S1600000x48.rank)
  bcast_S_S1600000x48 : S_.BroadcastsInDim S1600000x48 (![] : Fin 0 → Fin S1600000x48.rank)
  bcast_S_S100000 : S_.BroadcastsInDim S100000 (![] : Fin 0 → Fin S100000.rank)
  shapeCasts_S100000_S100000x1 : S100000.ShapeCasts S100000x1
  bcast_S_S100000x48 : S_.BroadcastsInDim S100000x48 (![] : Fin 0 → Fin S100000x48.rank)
  shapeCasts_S5000x1_S5000x1 : S5000x1.ShapeCasts S5000x1
  shapeCasts_S5000x48_S5000x48 : S5000x48.ShapeCasts S5000x48
  gather_S100000x48_S1600000x1_S1600000x48_1_0_n_n_0_1_148_wf : GatherDims.WF S100000x48 S1600000x1 S1600000x48 [1] [0] [] [0] [] 1 ![1, 48]
  scatter_S100000_S1600000x1_S1600000_n_0_0_1_wf : ScatterDims.WF S100000 S1600000x1 S1600000 [] [0] [0] 1
  scatter_S100000x48_S1600000x1_S1600000x48_1_0_0_1_wf : ScatterDims.WF S100000x48 S1600000x1 S1600000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S100000x48.size a
  hwx0_2 : ∀ i : grid0.Coords, EltTy.bits .f32 = 32 ∨ (Rect.block (s := S100000x48) S5000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S100000x48.size a
  hwx1_0 : ∀ i : grid1.Coords, EltTy.bits .f32 = 32 ∨ (Rect.block (s := S100000x48) S5000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x48.size a ≤ S100000x48.size a
  hwx1_3 : ∀ i : grid1.Coords, EltTy.bits .f32 = 32 ∨ (Rect.block (s := S100000x48) S5000x48.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x48.size a ≤ S100000x48.size a
  hwx1_4 : ∀ i : grid1.Coords, EltTy.bits .f32 = 32 ∨ (Rect.block (s := S100000x48) S5000x48.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x48.size a ≤ S100000x48.size a
  hwx1_5 : ∀ i : grid1.Coords, EltTy.bits .f32 = 32 ∨ (Rect.block (s := S100000x48) S5000x48.size (cc1_transform_5 i) (hinb1_5 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

abbrev win0_0 : Pipeline.Window sig grid0 :=
  Pipeline.Window.ofSpec (Memref.whole main_arg0) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x48.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x48.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S5000x48.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S100000x1 : Shape := ⟨2, ![100000, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S100000 : Shape := ⟨1, ![100000]⟩
abbrev S1 : Shape := ⟨1, ![1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S100000x48, .f32⟩
  | .hbm, ⟨2, _⟩ => ⟨S2x1600000, .i32⟩
  | .hbm, ⟨3, _⟩ => ⟨S100000x1, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x48, .f32⟩
  | .hbm, ⟨9, _⟩ => ⟨S100000x48, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x48, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x48, .f32⟩
  | .hbm, ⟨28, _⟩ => ⟨S1600000x48, .f32⟩
  | .hbm, ⟨29, _⟩ => ⟨S1600000x48, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S100000, .f32⟩
  | .hbm, ⟨46, _⟩ => ⟨S1, .i32⟩
  | .hbm, ⟨47, _⟩ => ⟨S_, .i32⟩
  | .hbm, ⟨48, _⟩ => ⟨S1600000x1, .i32⟩
  | .hbm, ⟨49, _⟩ => ⟨S1600000x1, .i1⟩
  | .hbm, ⟨50, _⟩ => ⟨S1x1, .i32⟩
  | .hbm, ⟨51, _⟩ => ⟨S1600000x1, .i32⟩
  | .hbm, ⟨52, _⟩ => ⟨S1600000x1, .i1⟩
  | .hbm, ⟨53, _⟩ => ⟨S1600000x1, .i1⟩
  | .hbm, ⟨54, _⟩ => ⟨S_, .i1⟩
  | .hbm, ⟨55, _⟩ => ⟨S1600000, .i1⟩
  | .hbm, ⟨56, _⟩ => ⟨S1600000, .f32⟩
  | .hbm, ⟨57, _⟩ => ⟨S_, .f32⟩
  | .hbm, ⟨58, _⟩ => ⟨S1600000, .f32⟩
  | .hbm, ⟨59, _⟩ => ⟨S1600000, .f32⟩
  | .hbm, ⟨60, _⟩ => ⟨S1600000x48, .f32⟩
  | .hbm, ⟨61, _⟩ => ⟨S1600000x48, .f32⟩
  | .hbm, ⟨62, _⟩ => ⟨S1600000x48, .f32⟩
  | .hbm, ⟨63, _⟩ => ⟨S1600000x48, .f32⟩
  | .hbm, ⟨64, _⟩ => ⟨S1600000x48, .f32⟩
  | .hbm, ⟨65, _⟩ => ⟨S_, .f32⟩
  | .hbm, ⟨66, _⟩ => ⟨S100000x48, .f32⟩
  | .hbm, ⟨67, _⟩ => ⟨S100000x48, .f32⟩
  | .hbm, ⟨68, _⟩ => ⟨S_, .f32⟩
  | .hbm, ⟨69, _⟩ => ⟨S100000x48, .f32⟩
  | .hbm, ⟨70, _⟩ => ⟨S100000x48, .f32⟩
  | .hbm, ⟨71, _⟩ => ⟨S100000x48, .f32⟩
  | .hbm, ⟨72, _⟩ => ⟨S100000x48, .f32⟩
  | .hbm, ⟨73, _⟩ => ⟨S100000x48, .f32⟩
  | .hbm, ⟨74, _⟩ => ⟨S_, .f32⟩
  | .hbm, ⟨75, _⟩ => ⟨S100000x48, .f32⟩
  | .hbm, ⟨76, _⟩ => ⟨S100000x48, .f32⟩
  | .hbm, ⟨77, _⟩ => ⟨S100000x48, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_11 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S100000x1_S100000x48_0_1 : S100000x1.BroadcastsInDim S100000x48 (![0, 1] : Fin 2 → Fin S100000x48.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x48_S1600000_d1 : S1600000x48.ReducesTo [1] S1600000
  h_S_ : 0 < S_.numel
  bcast_S_S100000 : S_.BroadcastsInDim S100000 (![] : Fin 0 → Fin S100000.rank)
  reducesTo_S100000_S_d0 : S100000.ReducesTo [0] S_
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x48_0 : S1600000.BroadcastsInDim S1600000x48 (![0] : Fin 1 → Fin S1600000x48.rank)
  bcast_S_S100000x48 : S_.BroadcastsInDim S100000x48 (![] : Fin 0 → Fin S100000x48.rank)
  gather_S100000x48_S1600000x1_S1600000x48_1_0_n_n_0_1_148_wf : GatherDims.WF S100000x48 S1600000x1 S1600000x48 [1] [0] [] [0] [] 1 ![1, 48]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000x48_S1600000x1_S1600000x48_1_0_0_1_wf : ScatterDims.WF S100000x48 S1600000x1 S1600000x48 [1] [0] [0] 1

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

class Facts : Prop extends Facts₀ where

variable [Facts]
-- ==== Proof.Region0Value.lean ====
/-
  What the first region (the row scale) leaves in its output array, as one function of the two arrays it finds: each
  grid point t stores, into rows 5000·t … 5000·t + 4999, the product of a feature entry and its row's factor, and the
  twenty blocks tile the array.
-/
import proofs.«419742_j2989297238461_3_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's value at an entry: the feature times its row's factor. -/
theorem rowScale_apply (x0 : Vec Ideal S5000x48 .f32) (x1 : Vec Ideal S5000x1 .f32) (p : Fin 5000) (q : Fin 48) :
    k0_pay1 (F := Ideal) x0 x1 (ix2 p q) = x0 (ix2 p q) * x1 (ix2 p (0 : Fin 1)) := by
  unfold k0_pay1
  show (x0 (ix2 p q) : EReal) * broadcastTo (α := EReal) S5000x48 x1 Facts₀.broadcasts_S5000x1_S5000x48 (ix2 p q) = _
  refine congrArg (fun t : EReal => (x0 (ix2 p q) : EReal) * t) ?_
  exact broadcastTo_apply (α := EReal) x1 Facts₀.broadcasts_S5000x1_S5000x48 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

section
variable (V : (c : Dev nD) → (b : Ref sig .tc) → Buf (Elt Ideal) ((c : Thread nD τ).loc b))

/-- The feature array as the region finds it. -/
abbrev featArr (c : Dev nD) : S100000x48.Idx → EReal := V c main_arg0
/-- The factor column as the region finds it. -/
abbrev factArr (c : Dev nD) : S100000x1.Idx → EReal := V c main_arg3

/-- z_reg as the region writes it, from the arrays it finds. -/
def scaled (c : Dev nD) : S100000x48.Idx → EReal :=
  fun i => featArr V c i * factArr V c (ix2 (i 0) (0 : Fin 1))

/-- Every window's block index at point t is (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The features' block at point t is rows 5000·t … of the array. -/
theorem blk0_0_apply (c : Dev nD) (t : Fin cfg0.N) (p : Fin 5000) (q : Fin 48) (k : S100000x48.Idx)
    (hk0 : (k 0).val = t.val * 5000 + p.val) (hk1 : (k 1).val = q.val) :
    (iblk0 V c 0 t : Vec Ideal S5000x48 .f32) (ix2 p q) = featArr V c k := by
  obtain ⟨e0, e1, -, -, -, -⟩ := idx_facts0 t
  unfold iblk0
  rw [View.read_apply]
  show featArr V c _ = featArr V c k
  refine congrArg (featArr V c) ?_
  funext a
  apply Fin.ext
  match a with
  | ⟨0, _⟩ => show win0_0.index t (0 : Fin 2) * 5000 + 1 * p.val = (k 0).val; rw [e0, hk0]; omega
  | ⟨1, _⟩ => show win0_0.index t (1 : Fin 2) * 48 + 1 * q.val = (k 1).val; rw [e1, hk1]; omega

/-- The factors' block at point t is rows 5000·t … of the column. -/
theorem blk0_1_apply (c : Dev nD) (t : Fin cfg0.N) (p : Fin 5000) (k : S100000x1.Idx)
    (hk0 : (k 0).val = t.val * 5000 + p.val) :
    (iblk0 V c 1 t : Vec Ideal S5000x1 .f32) (ix2 p (0 : Fin 1)) = factArr V c k := by
  obtain ⟨-, -, e2, e3, -, -⟩ := idx_facts0 t
  unfold iblk0
  rw [View.read_apply]
  show factArr V c _ = factArr V c k
  refine congrArg (factArr V c) ?_
  funext a
  apply Fin.ext
  match a with
  | ⟨0, _⟩ => show win0_1.index t (0 : Fin 2) * 5000 + 1 * p.val = (k 0).val; rw [e2, hk0]; omega
  | ⟨1, _⟩ => show win0_1.index t (1 : Fin 2) * 1 + 1 * 0 = (k 1).val; have h1 : (k 1).val < 1 := (k 1).isLt; rw [e3]; omega

/-- What point t writes back is block t of `scaled`. -/
theorem flushed0 (c : Dev nD) (t : Fin cfg0.N) :
    (dat0 (F := Ideal) V c).flushed 2 t = ((cfg0.win 2).blk t).view.read (Elt Ideal) (scaled V c) := by
  show (cfg0.win 2).cut (grid0.coords t) ((dat0 V c).after 2 t) = _
  rw [after0_2]
  unfold out0_2
  rw [View.canon_unit_zero hz]
  simp only [View.ld_unit_zero (S := S5000x48) hz, View.ld_unit_zero (S := S5000x1) hz]
  obtain ⟨-, -, -, -, e4, e5⟩ := idx_facts0 t
  funext j
  obtain ⟨p, q, rfl⟩ : ∃ (p : Fin 5000) (q : Fin 48), j = ix2 p q := ⟨j 0, j 1, eq_ix2 j⟩
  have hp := p.isLt
  have ht : t.val < 20 := t.isLt.trans_eq N_0
  refine (rowScale_apply (iblk0 V c 0 t) (iblk0 V c 1 t) p q).trans ?_
  rw [View.read_apply]
  have hemb : ((cfg0.win 2).blk t).view.emb (ix2 p q) = (ix2 (⟨t.val * 5000 + p.val, by omega⟩ : Fin 100000) q : S100000x48.Idx) := by
    funext a
    apply Fin.ext
    match a with
    | ⟨0, _⟩ => show win0_2.index t (0 : Fin 2) * 5000 + 1 * p.val = t.val * 5000 + p.val; rw [e4]; omega
    | ⟨1, _⟩ => show win0_2.index t (1 : Fin 2) * 48 + 1 * q.val = q.val; rw [e5]; omega
  rw [hemb]
  show _ = featArr V c (ix2 (⟨t.val * 5000 + p.val, by omega⟩ : Fin 100000) q)
    * factArr V c (ix2 (⟨t.val * 5000 + p.val, by omega⟩ : Fin 100000) (0 : Fin 1))
  rw [blk0_0_apply V c t p q (ix2 (⟨t.val * 5000 + p.val, by omega⟩ : Fin 100000) q) rfl rfl,
    blk0_1_apply V c t p (ix2 (⟨t.val * 5000 + p.val, by omega⟩ : Fin 100000) (0 : Fin 1)) rfl]

/-- An index is in point t's block iff its row is among the block's 5000. -/
theorem mem_blk0 (t : Fin cfg0.N) (i : S100000x48.Idx) :
    i ∈ ((cfg0.win 2).blk t).view.set ↔ ∀ a : Fin 2, win0_2.index t a * S5000x48.size a ≤ (i a).val ∧ (i a).val < win0_2.index t a * S5000x48.size a + S5000x48.size a := by
  show i ∈ ((View.whole main_v4).slice (win0_2.rect t)).set ↔ _
  rw [View.set_slice_whole, Rect.mem_set_unit]
  exact Iff.rfl

/-- The output array after the region: `scaled` of what the region found. -/
theorem region0_final (c : Dev nD) : (dat0 (F := Ideal) V c).arrAt 2 cfg0.N = scaled V c :=
  (dat0 (F := Ideal) V c).arrAt_eq_of_cover 2 (scaled V c) (fun t _ => flushed0 V c t) fun i => by
    have hi0 : (i 0).val < 100000 := (i 0).isLt
    have hi1 : (i 1).val < 48 := (i 1).isLt
    have hN : cfg0.N = 20 := N_0
    let t : Fin cfg0.N := ⟨(i 0).val / 5000, by rw [hN]; omega⟩
    obtain ⟨-, -, -, -, e4, e5⟩ := idx_facts0 t
    refine ⟨t, flush0_2 t, ?_⟩
    rw [mem_blk0]
    intro a
    match a with
    | ⟨0, _⟩ =>
      show win0_2.index t (0 : Fin 2) * 5000 ≤ (i 0).val ∧ (i 0).val < win0_2.index t (0 : Fin 2) * 5000 + 5000
      rw [e4]; show (i 0).val / 5000 * 5000 ≤ (i 0).val ∧ (i 0).val < (i 0).val / 5000 * 5000 + 5000; omega
    | ⟨1, _⟩ =>
      show win0_2.index t (1 : Fin 2) * 48 ≤ (i 1).val ∧ (i 1).val < win0_2.index t (1 : Fin 2) * 48 + 48
      rw [e5]; omega

end

end Cert.KernelIdeal.Hand

end
-- ==== Proof.Region1Value.lean ====
/-
  What the second region (the final combine) leaves in its output array, as one function of the five arrays it finds:
  at row r and column d, z − c · (s · ((deg · (s · z) − S1) − S2)) with s and deg read at row r of their columns; each
  grid point writes rows 5000·t … 5000·t + 4999 and the twenty blocks tile the array.
-/
import proofs.«419742_j2989297238461_3_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz1 : (![0, 0] : Fin 2 → Nat) = fun _ => 0 := funext fun a => by fin_cases a <;> rfl

/-- The kernel's named coefficient, an extended real. -/
abbrev coeff : EReal := Named.named (F := Ideal) κ "coeff_times_2_over_n" (φ := .f32) 0x360637BD#32

/-- A column broadcast along the rows, read at an entry. -/
theorem colBcast_apply (x : S5000x1.Idx → EReal) (p : Fin 5000) (q : Fin 48) :
    broadcastTo (α := EReal) S5000x48 x Facts₀.broadcasts_S5000x1_S5000x48 (ix2 p q) = x (ix2 p (0 : Fin 1)) :=
  broadcastTo_apply (α := EReal) x Facts₀.broadcasts_S5000x1_S5000x48 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The body's value at an entry. -/
theorem combine_apply (x0 x8 x11 : Vec Ideal S5000x48 .f32) (x1 x4 : Vec Ideal S5000x1 .f32) (p : Fin 5000) (q : Fin 48) :
    k1_pay1 (F := Ideal) x0 x1 x4 x8 x11 (ix2 p q)
      = x0 (ix2 p q) - coeff * (x1 (ix2 p (0 : Fin 1)) * (((x4 (ix2 p (0 : Fin 1)) * (x1 (ix2 p (0 : Fin 1)) * x0 (ix2 p q))) - x8 (ix2 p q)) - x11 (ix2 p q))) := by
  unfold k1_pay1
  simp only [shapeCast_self]
  show (x0 (ix2 p q) : EReal) - coeff * (broadcastTo (α := EReal) S5000x48 x1 Facts₀.broadcasts_S5000x1_S5000x48 (ix2 p q)
      * (((broadcastTo (α := EReal) S5000x48 x4 Facts₀.broadcasts_S5000x1_S5000x48 (ix2 p q)
          * (broadcastTo (α := EReal) S5000x48 x1 Facts₀.broadcasts_S5000x1_S5000x48 (ix2 p q) * x0 (ix2 p q))) - x8 (ix2 p q)) - x11 (ix2 p q))) = _
  rw [colBcast_apply, colBcast_apply]

section
variable (V : (c : Dev nD) → (b : Ref sig .tc) → Buf (Elt Ideal) ((c : Thread nD τ).loc b))

/-- The five arrays as the region finds them. -/
abbrev zArr (c : Dev nD) : S100000x48.Idx → EReal := V c main_arg0
abbrev sArr (c : Dev nD) : S100000x1.Idx → EReal := V c main_arg3
abbrev degArr (c : Dev nD) : S100000x1.Idx → EReal := V c main_v15
abbrev sum1Arr (c : Dev nD) : S100000x48.Idx → EReal := V c main_v18
abbrev sum2Arr (c : Dev nD) : S100000x48.Idx → EReal := V c main_v21

/-- The region's result, from the arrays it finds. -/
def combined (c : Dev nD) : S100000x48.Idx → EReal :=
  fun i => zArr V c i - coeff * (sArr V c (ix2 (i 0) (0 : Fin 1)) *
    (((degArr V c (ix2 (i 0) (0 : Fin 1)) * (sArr V c (ix2 (i 0) (0 : Fin 1)) * zArr V c i)) - sum1Arr V c i) - sum2Arr V c i))

/-- Every window's block index at point t is (t, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = t.val
    ∧ win1_5.index t (1 : Fin 2) = 0 :=
  (by decide +kernel : ∀ t : Fin grid1.N, _)

theorem blk1_0_apply (c : Dev nD) (t : Fin cfg1.N) (p : Fin 5000) (q : Fin 48) (k : S100000x48.Idx)
    (hk0 : (k 0).val = t.val * 5000 + p.val) (hk1 : (k 1).val = q.val) :
    (iblk1 V c 0 t : Vec Ideal S5000x48 .f32) (ix2 p q) = zArr V c k := by
  obtain ⟨e0, e1, -, -, -, -, -, -, -, -, -, -⟩ := idx_facts1 t
  unfold iblk1
  rw [View.read_apply]
  show zArr V c _ = zArr V c k
  refine congrArg (zArr V c) ?_
  funext a
  apply Fin.ext
  match a with
  | ⟨0, _⟩ => show win1_0.index t (0 : Fin 2) * 5000 + 1 * p.val = (k 0).val; rw [e0, hk0]; omega
  | ⟨1, _⟩ => show win1_0.index t (1 : Fin 2) * 48 + 1 * q.val = (k 1).val; rw [e1, hk1]; omega

theorem blk1_1_apply (c : Dev nD) (t : Fin cfg1.N) (p : Fin 5000) (k : S100000x1.Idx)
    (hk0 : (k 0).val = t.val * 5000 + p.val) :
    (iblk1 V c 1 t : Vec Ideal S5000x1 .f32) (ix2 p (0 : Fin 1)) = sArr V c k := by
  obtain ⟨-, -, e0, e1, -, -, -, -, -, -, -, -⟩ := idx_facts1 t
  unfold iblk1
  rw [View.read_apply]
  show sArr V c _ = sArr V c k
  refine congrArg (sArr V c) ?_
  funext a
  apply Fin.ext
  match a with
  | ⟨0, _⟩ => show win1_1.index t (0 : Fin 2) * 5000 + 1 * p.val = (k 0).val; rw [e0, hk0]; omega
  | ⟨1, _⟩ => show win1_1.index t (1 : Fin 2) * 1 + 1 * 0 = (k 1).val; have h1 : (k 1).val < 1 := (k 1).isLt; rw [e1]; omega

theorem blk1_2_apply (c : Dev nD) (t : Fin cfg1.N) (p : Fin 5000) (k : S100000x1.Idx)
    (hk0 : (k 0).val = t.val * 5000 + p.val) :
    (iblk1 V c 2 t : Vec Ideal S5000x1 .f32) (ix2 p (0 : Fin 1)) = degArr V c k := by
  obtain ⟨-, -, -, -, e0, e1, -, -, -, -, -, -⟩ := idx_facts1 t
  unfold iblk1
  rw [View.read_apply]
  show degArr V c _ = degArr V c k
  refine congrArg (degArr V c) ?_
  funext a
  apply Fin.ext
  match a with
  | ⟨0, _⟩ => show win1_2.index t (0 : Fin 2) * 5000 + 1 * p.val = (k 0).val; rw [e0, hk0]; omega
  | ⟨1, _⟩ => show win1_2.index t (1 : Fin 2) * 1 + 1 * 0 = (k 1).val; have h1 : (k 1).val < 1 := (k 1).isLt; rw [e1]; omega

theorem blk1_3_apply (c : Dev nD) (t : Fin cfg1.N) (p : Fin 5000) (q : Fin 48) (k : S100000x48.Idx)
    (hk0 : (k 0).val = t.val * 5000 + p.val) (hk1 : (k 1).val = q.val) :
    (iblk1 V c 3 t : Vec Ideal S5000x48 .f32) (ix2 p q) = sum1Arr V c k := by
  obtain ⟨-, -, -, -, -, -, e0, e1, -, -, -, -⟩ := idx_facts1 t
  unfold iblk1
  rw [View.read_apply]
  show sum1Arr V c _ = sum1Arr V c k
  refine congrArg (sum1Arr V c) ?_
  funext a
  apply Fin.ext
  match a with
  | ⟨0, _⟩ => show win1_3.index t (0 : Fin 2) * 5000 + 1 * p.val = (k 0).val; rw [e0, hk0]; omega
  | ⟨1, _⟩ => show win1_3.index t (1 : Fin 2) * 48 + 1 * q.val = (k 1).val; rw [e1, hk1]; omega

theorem blk1_4_apply (c : Dev nD) (t : Fin cfg1.N) (p : Fin 5000) (q : Fin 48) (k : S100000x48.Idx)
    (hk0 : (k 0).val = t.val * 5000 + p.val) (hk1 : (k 1).val = q.val) :
    (iblk1 V c 4 t : Vec Ideal S5000x48 .f32) (ix2 p q) = sum2Arr V c k := by
  obtain ⟨-, -, -, -, -, -, -, -, e0, e1, -, -⟩ := idx_facts1 t
  unfold iblk1
  rw [View.read_apply]
  show sum2Arr V c _ = sum2Arr V c k
  refine congrArg (sum2Arr V c) ?_
  funext a
  apply Fin.ext
  match a with
  | ⟨0, _⟩ => show win1_4.index t (0 : Fin 2) * 5000 + 1 * p.val = (k 0).val; rw [e0, hk0]; omega
  | ⟨1, _⟩ => show win1_4.index t (1 : Fin 2) * 48 + 1 * q.val = (k 1).val; rw [e1, hk1]; omega

/-- What point t writes back is block t of `combined`. -/
theorem flushed1 (c : Dev nD) (t : Fin cfg1.N) :
    (dat1 (F := Ideal) V c).flushed 5 t = ((cfg1.win 5).blk t).view.read (Elt Ideal) (combined V c) := by
  show (cfg1.win 5).cut (grid1.coords t) ((dat1 V c).after 5 t) = _
  rw [after1_5]
  unfold out1_5
  rw [View.canon_unit_zero hz1]
  simp only [View.ld_unit_zero (S := S5000x48) hz1, View.ld_unit_zero (S := S5000x1) hz1]
  obtain ⟨-, -, -, -, -, -, -, -, -, -, e4, e5⟩ := idx_facts1 t
  funext j
  obtain ⟨p, q, rfl⟩ : ∃ (p : Fin 5000) (q : Fin 48), j = ix2 p q := ⟨j 0, j 1, eq_ix2 j⟩
  have hp := p.isLt
  have ht : t.val < 20 := t.isLt.trans_eq N_1
  refine (combine_apply (iblk1 V c 0 t) (iblk1 V c 3 t) (iblk1 V c 4 t) (iblk1 V c 1 t) (iblk1 V c 2 t) p q).trans ?_
  rw [View.read_apply]
  have hemb : ((cfg1.win 5).blk t).view.emb (ix2 p q) = (ix2 (⟨t.val * 5000 + p.val, by omega⟩ : Fin 100000) q : S100000x48.Idx) := by
    funext a
    apply Fin.ext
    match a with
    | ⟨0, _⟩ => show win1_5.index t (0 : Fin 2) * 5000 + 1 * p.val = t.val * 5000 + p.val; rw [e4]; omega
    | ⟨1, _⟩ => show win1_5.index t (1 : Fin 2) * 48 + 1 * q.val = q.val; rw [e5]; omega
  rw [hemb]
  show _ = zArr V c (ix2 (⟨t.val * 5000 + p.val, by omega⟩ : Fin 100000) q) - coeff * (sArr V c (ix2 (⟨t.val * 5000 + p.val, by omega⟩ : Fin 100000) (0 : Fin 1)) *
    (((degArr V c (ix2 (⟨t.val * 5000 + p.val, by omega⟩ : Fin 100000) (0 : Fin 1)) * (sArr V c (ix2 (⟨t.val * 5000 + p.val, by omega⟩ : Fin 100000) (0 : Fin 1)) * zArr V c (ix2 (⟨t.val * 5000 + p.val, by omega⟩ : Fin 100000) q)))
      - sum1Arr V c (ix2 (⟨t.val * 5000 + p.val, by omega⟩ : Fin 100000) q)) - sum2Arr V c (ix2 (⟨t.val * 5000 + p.val, by omega⟩ : Fin 100000) q)))
  rw [blk1_0_apply V c t p q (ix2 (⟨t.val * 5000 + p.val, by omega⟩ : Fin 100000) q) rfl rfl,
    blk1_1_apply V c t p (ix2 (⟨t.val * 5000 + p.val, by omega⟩ : Fin 100000) (0 : Fin 1)) rfl,
    blk1_2_apply V c t p (ix2 (⟨t.val * 5000 + p.val, by omega⟩ : Fin 100000) (0 : Fin 1)) rfl,
    blk1_3_apply V c t p q (ix2 (⟨t.val * 5000 + p.val, by omega⟩ : Fin 100000) q) rfl rfl,
    blk1_4_apply V c t p q (ix2 (⟨t.val * 5000 + p.val, by omega⟩ : Fin 100000) q) rfl rfl]

/-- An index is in point t's block iff its row is among the block's 5000. -/
theorem mem_blk1 (t : Fin cfg1.N) (i : S100000x48.Idx) :
    i ∈ ((cfg1.win 5).blk t).view.set ↔ ∀ a : Fin 2, win1_5.index t a * S5000x48.size a ≤ (i a).val ∧ (i a).val < win1_5.index t a * S5000x48.size a + S5000x48.size a := by
  show i ∈ ((View.whole main_v22).slice (win1_5.rect t)).set ↔ _
  rw [View.set_slice_whole, Rect.mem_set_unit]
  exact Iff.rfl

/-- The output array after the region: `combined` of what the region found. -/
theorem region1_final (c : Dev nD) : (dat1 (F := Ideal) V c).arrAt 5 cfg1.N = combined V c :=
  (dat1 (F := Ideal) V c).arrAt_eq_of_cover 5 (combined V c) (fun t _ => flushed1 V c t) fun i => by
    have hi0 : (i 0).val < 100000 := (i 0).isLt
    have hi1 : (i 1).val < 48 := (i 1).isLt
    have hN : cfg1.N = 20 := N_1
    let t : Fin cfg1.N := ⟨(i 0).val / 5000, by rw [hN]; omega⟩
    obtain ⟨-, -, -, -, -, -, -, -, -, -, e4, e5⟩ := idx_facts1 t
    refine ⟨t, flush1_5 t, ?_⟩
    rw [mem_blk1]
    intro a
    match a with
    | ⟨0, _⟩ =>
      show win1_5.index t (0 : Fin 2) * 5000 ≤ (i 0).val ∧ (i 0).val < win1_5.index t (0 : Fin 2) * 5000 + 5000
      rw [e4]; show (i 0).val / 5000 * 5000 ≤ (i 0).val ∧ (i 0).val < (i 0).val / 5000 * 5000 + 5000; omega
    | ⟨1, _⟩ =>
      show win1_5.index t (1 : Fin 2) * 48 ≤ (i 1).val ∧ (i 1).val < win1_5.index t (1 : Fin 2) * 48 + 48
      rw [e5]; omega

end

end Cert.KernelIdeal.Hand

end
-- ==== Proof.KernelHost.lean ====
/-
  The host side of the kernel's program, between and around its two regions, as functions of what each stretch of
  host operations finds: the edge list's two rows as vectors of words, the row gather with its negative-index wrap
  and out-of-bounds fill (`takeRows`), the degree counts and the two sums of gathered rows scattered to the nodes.
-/
import proofs.«419742_j2989297238461_3_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] [Named F]

/-- Row 0 of the edge list as a vector: the edges' first endpoints. -/
def firstWords (x2 : (⟨S2x1600000, .i32⟩ : BufTy).Contents (Elt F)) : (⟨S1600000, .i32⟩ : BufTy).Contents (Elt F) :=
  shapeCast _ (extractStridedSlice S1x1600000 ![0, 0] x2 Facts₀.slices_S2x1600000_S1x1600000_0_0) Facts₀.shapeCasts_S1x1600000_S1600000

/-- Row 1 of the edge list as a vector: the edges' second endpoints. -/
def secondWords (x2 : (⟨S2x1600000, .i32⟩ : BufTy).Contents (Elt F)) : (⟨S1600000, .i32⟩ : BufTy).Contents (Elt F) :=
  shapeCast _ (extractStridedSlice S1x1600000 ![1, 0] x2 Facts₀.slices_S2x1600000_S1x1600000_1_0) Facts₀.shapeCasts_S1x1600000_S1600000

/-- A vector of index words with the negative ones moved up by the number of nodes, as a column of start indices. -/
def wrappedCol (w : (⟨S1600000, .i32⟩ : BufTy).Contents (Elt F)) : (⟨S1600000x1, .i32⟩ : BufTy).Contents (Elt F) :=
  broadcastInDim S1600000x1 ![0] Facts₀.bcast_S1600000_S1600000x1_0
    (select (cmpi .slt w (broadcastInDim S1600000 ![] Facts₀.bcast_S_S1600000 (constantI S_ 32 0#32)))
      (addi w (broadcastInDim S1600000 ![] Facts₀.bcast_S_S1600000 (constantI S_ 32 100000#32))) w)

/-- Which start indices of a column are inside the node range. -/
def inBounds (v : (⟨S1600000x1, .i32⟩ : BufTy).Contents (Elt F)) : (⟨S1600000, .i1⟩ : BufTy).Contents (Elt F) :=
  Host.reduce IntOp.andi
    (andi (cmpi .sge v (broadcastInDim S1600000x1 ![] Facts₀.bcast_S_S1600000x1 (constantI S_ 32 0#32)))
      (cmpi .sle v (broadcastInDim S1600000x1 ![0, 1] Facts₀.bcast_S1x1_S1600000x1_0_1 (broadcastInDim S1x1 ![1] Facts₀.bcast_S1_S1x1_1 (constantI S1 32 99999#32)))))
    (constantI S_ 1 1#1) Facts₀.reducesTo_S1600000x1_S1600000_d1 Facts₀.h_S_

/-- The rows of `zr` the index words name: negative words wrapped, and a row whose word is out of range filled with
    the fill constant instead. -/
def takeRows (zr : (⟨S100000x48, .f32⟩ : BufTy).Contents (Elt F)) (w : (⟨S1600000, .i32⟩ : BufTy).Contents (Elt F)) :
    (⟨S1600000x48, .f32⟩ : BufTy).Contents (Elt F) :=
  select (broadcastInDim S1600000x48 ![0] Facts₀.bcast_S1600000_S1600000x48_0 (inBounds (F := F) (wrappedCol (F := F) w)))
    (Host.gather gather_S100000x48_S1600000x1_S1600000x48_1_0_n_n_0_1_148 zr (wrappedCol (F := F) w))
    (broadcastInDim S1600000x48 ![] Facts₀.bcast_S_S1600000x48 (constant S_ .f32 0x7FC00000#32))

/-- The number of edge ends at each node: edges counted at their first endpoint plus edges counted at their second. -/
def degrees (w1 w3 : (⟨S1600000, .i32⟩ : BufTy).Contents (Elt F)) : (⟨S100000x1, .f32⟩ : BufTy).Contents (Elt F) :=
  shapeCast _ (addf
    (Host.scatterAdd scatter_S100000_S1600000x1_S1600000_n_0_0_1 (broadcastInDim S100000 ![] Facts₀.bcast_S_S100000 (constant S_ .f32 0x00000000#32))
      (broadcastInDim S1600000x1 ![0] Facts₀.bcast_S1600000_S1600000x1_0 w1) (broadcastInDim S1600000 ![] Facts₀.bcast_S_S1600000 (constant S_ .f32 0x3F800000#32)))
    (Host.scatterAdd scatter_S100000_S1600000x1_S1600000_n_0_0_1 (broadcastInDim S100000 ![] Facts₀.bcast_S_S100000 (constant S_ .f32 0x00000000#32))
      (broadcastInDim S1600000x1 ![0] Facts₀.bcast_S1600000_S1600000x1_0 w3) (broadcastInDim S1600000 ![] Facts₀.bcast_S_S1600000 (constant S_ .f32 0x3F800000#32))))
    Facts₀.shapeCasts_S100000_S100000x1

/-- Rows `g` summed into the nodes the words `w` name, from zero. -/
def rowSums (w : (⟨S1600000, .i32⟩ : BufTy).Contents (Elt F)) (g : (⟨S1600000x48, .f32⟩ : BufTy).Contents (Elt F)) :
    (⟨S100000x48, .f32⟩ : BufTy).Contents (Elt F) :=
  Host.scatterAdd scatter_S100000x48_S1600000x1_S1600000x48_1_0_0_1 (broadcastInDim S100000x48 ![] Facts₀.bcast_S_S100000x48 (constant S_ .f32 0x00000000#32))
    (broadcastInDim S1600000x1 ![0] Facts₀.bcast_S1600000_S1600000x1_0 w) g

/-! ## The stretch before the first region -/

set_option maxHeartbeats 2000000 in
theorem pre_v1 (X : Valuation τ sig (Elt F)) :
    StableHlo.after (hostOps0 (F := F)) X (Proc.devRef .tc main_v1) = firstWords (F := F) (X (Proc.devRef .tc main_arg2)) := by
  after_results <;> rfl

set_option maxHeartbeats 2000000 in
theorem pre_v3 (X : Valuation τ sig (Elt F)) :
    StableHlo.after (hostOps0 (F := F)) X (Proc.devRef .tc main_v3) = secondWords (F := F) (X (Proc.devRef .tc main_arg2)) := by
  after_results <;> rfl

set_option maxHeartbeats 2000000 in
theorem pre_arg0 (X : Valuation τ sig (Elt F)) :
    StableHlo.after (hostOps0 (F := F)) X (Proc.devRef .tc main_arg0) = X (Proc.devRef .tc main_arg0) := by
  after_results <;> rfl

set_option maxHeartbeats 2000000 in
theorem pre_arg3 (X : Valuation τ sig (Elt F)) :
    StableHlo.after (hostOps0 (F := F)) X (Proc.devRef .tc main_arg3) = X (Proc.devRef .tc main_arg3) := by
  after_results <;> rfl

end Cert.KernelIdeal.Hand

end
-- ==== Proof.KernelStages.lean ====
/-
  What each stretch of host operations between the two regions leaves in the buffers the second region reads, from
  the buffer contents the stretch finds: the two row gathers, then the degree counts and the two scattered row sums.
-/
import proofs.«419742_j2989297238461_3_alg».proof.Proof.KernelHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] [Named F]

/-- Running two stretches one after the other is running their concatenation. -/
theorem after_append (l1 l2 : List (HloOp τ sig (Elt F))) (V : Valuation τ sig (Elt F)) :
    StableHlo.after (l1 ++ l2) V = StableHlo.after l2 (StableHlo.after l1 V) := by
  induction l1 generalizing V with
  | nil => rfl
  | cons op l ih => simp only [List.cons_append, after_cons, ih]

/-! ## The first gather (rows named by the second endpoints), in two parts: up to the gathered rows and the bounds mask, then the fill -/

set_option maxHeartbeats 2000000 in
theorem take1_mask (X : Valuation τ sig (Elt F)) :
    StableHlo.after (List.take 19 (hostOps1 (F := F))) X (Proc.devRef .tc main_call0_v12)
      = inBounds (F := F) (wrappedCol (F := F) (X (Proc.devRef .tc main_v3))) := by
  simp only [hostOps1, List.take_succ_cons, List.take_zero]
  after_results
  simp only [TRef.toBuf, TRef.ofBuf, cast_eq]
  rfl

set_option maxHeartbeats 2000000 in
theorem take1_rows (X : Valuation τ sig (Elt F)) :
    StableHlo.after (List.take 19 (hostOps1 (F := F))) X (Proc.devRef .tc main_call0_v13)
      = Host.gather gather_S100000x48_S1600000x1_S1600000x48_1_0_n_n_0_1_148 (X (Proc.devRef .tc main_v4)) (wrappedCol (F := F) (X (Proc.devRef .tc main_v3))) := by
  simp only [hostOps1, List.take_succ_cons, List.take_zero]
  after_results
  simp only [TRef.toBuf, TRef.ofBuf, cast_eq]
  rfl

set_option maxHeartbeats 2000000 in
theorem take1_fill (Y : Valuation τ sig (Elt F)) :
    StableHlo.after (List.drop 19 (hostOps1 (F := F))) Y (Proc.devRef .tc main_v5)
      = select (broadcastInDim S1600000x48 ![0] Facts₀.bcast_S1600000_S1600000x48_0 (Y (Proc.devRef .tc main_call0_v12)))
          (Y (Proc.devRef .tc main_call0_v13))
          (broadcastInDim S1600000x48 ![] Facts₀.bcast_S_S1600000x48 (constant S_ .f32 0x7FC00000#32)) := by
  simp only [hostOps1, List.drop_succ_cons, List.drop_zero]
  after_results
  rfl

theorem take1_v5 (X : Valuation τ sig (Elt F)) :
    StableHlo.after (hostOps1 (F := F)) X (Proc.devRef .tc main_v5)
      = takeRows (F := F) (X (Proc.devRef .tc main_v4)) (X (Proc.devRef .tc main_v3)) := by
  have h : (hostOps1 (F := F)) = List.take 19 hostOps1 ++ List.drop 19 hostOps1 := (List.take_append_drop 19 _).symm
  refine (congrArg (fun l => StableHlo.after l X (Proc.devRef .tc main_v5)) h).trans ?_
  show StableHlo.after (List.take 19 (hostOps1 (F := F)) ++ List.drop 19 hostOps1) X (Proc.devRef .tc main_v5) = _
  rw [after_append, take1_fill, take1_mask, take1_rows]
  rfl

set_option maxHeartbeats 4000000 in
theorem take1_v1 (X : Valuation τ sig (Elt F)) :
    StableHlo.after (hostOps1 (F := F)) X (Proc.devRef .tc main_v1) = X (Proc.devRef .tc main_v1) := by
  after_results <;> rfl

set_option maxHeartbeats 4000000 in
theorem take1_v3 (X : Valuation τ sig (Elt F)) :
    StableHlo.after (hostOps1 (F := F)) X (Proc.devRef .tc main_v3) = X (Proc.devRef .tc main_v3) := by
  after_results <;> rfl

set_option maxHeartbeats 4000000 in
theorem take1_v4 (X : Valuation τ sig (Elt F)) :
    StableHlo.after (hostOps1 (F := F)) X (Proc.devRef .tc main_v4) = X (Proc.devRef .tc main_v4) := by
  after_results <;> rfl

set_option maxHeartbeats 4000000 in
theorem take1_arg0 (X : Valuation τ sig (Elt F)) :
    StableHlo.after (hostOps1 (F := F)) X (Proc.devRef .tc main_arg0) = X (Proc.devRef .tc main_arg0) := by
  after_results <;> rfl

set_option maxHeartbeats 4000000 in
theorem take1_arg3 (X : Valuation τ sig (Elt F)) :
    StableHlo.after (hostOps1 (F := F)) X (Proc.devRef .tc main_arg3) = X (Proc.devRef .tc main_arg3) := by
  after_results <;> rfl

/-! ## The second gather (rows named by the first endpoints), in two parts: up to the gathered rows and the bounds mask, then the fill -/

set_option maxHeartbeats 2000000 in
theorem take2_mask (X : Valuation τ sig (Elt F)) :
    StableHlo.after (List.take 19 (hostOps1_1 (F := F))) X (Proc.devRef .tc main_call1_v12)
      = inBounds (F := F) (wrappedCol (F := F) (X (Proc.devRef .tc main_v1))) := by
  simp only [hostOps1_1, List.take_succ_cons, List.take_zero]
  after_results
  simp only [TRef.toBuf, TRef.ofBuf, cast_eq]
  rfl

set_option maxHeartbeats 2000000 in
theorem take2_rows (X : Valuation τ sig (Elt F)) :
    StableHlo.after (List.take 19 (hostOps1_1 (F := F))) X (Proc.devRef .tc main_call1_v13)
      = Host.gather gather_S100000x48_S1600000x1_S1600000x48_1_0_n_n_0_1_148 (X (Proc.devRef .tc main_v4)) (wrappedCol (F := F) (X (Proc.devRef .tc main_v1))) := by
  simp only [hostOps1_1, List.take_succ_cons, List.take_zero]
  after_results
  simp only [TRef.toBuf, TRef.ofBuf, cast_eq]
  rfl

set_option maxHeartbeats 2000000 in
theorem take2_fill (Y : Valuation τ sig (Elt F)) :
    StableHlo.after (List.drop 19 (hostOps1_1 (F := F))) Y (Proc.devRef .tc main_v6)
      = select (broadcastInDim S1600000x48 ![0] Facts₀.bcast_S1600000_S1600000x48_0 (Y (Proc.devRef .tc main_call1_v12)))
          (Y (Proc.devRef .tc main_call1_v13))
          (broadcastInDim S1600000x48 ![] Facts₀.bcast_S_S1600000x48 (constant S_ .f32 0x7FC00000#32)) := by
  simp only [hostOps1_1, List.drop_succ_cons, List.drop_zero]
  after_results
  rfl

theorem take2_v6 (X : Valuation τ sig (Elt F)) :
    StableHlo.after (hostOps1_1 (F := F)) X (Proc.devRef .tc main_v6)
      = takeRows (F := F) (X (Proc.devRef .tc main_v4)) (X (Proc.devRef .tc main_v1)) := by
  have h : (hostOps1_1 (F := F)) = List.take 19 hostOps1_1 ++ List.drop 19 hostOps1_1 := (List.take_append_drop 19 _).symm
  refine (congrArg (fun l => StableHlo.after l X (Proc.devRef .tc main_v6)) h).trans ?_
  show StableHlo.after (List.take 19 (hostOps1_1 (F := F)) ++ List.drop 19 hostOps1_1) X (Proc.devRef .tc main_v6) = _
  rw [after_append, take2_fill, take2_mask, take2_rows]
  rfl

set_option maxHeartbeats 4000000 in
theorem take2_v1 (X : Valuation τ sig (Elt F)) :
    StableHlo.after (hostOps1_1 (F := F)) X (Proc.devRef .tc main_v1) = X (Proc.devRef .tc main_v1) := by
  after_results <;> rfl

set_option maxHeartbeats 4000000 in
theorem take2_v3 (X : Valuation τ sig (Elt F)) :
    StableHlo.after (hostOps1_1 (F := F)) X (Proc.devRef .tc main_v3) = X (Proc.devRef .tc main_v3) := by
  after_results <;> rfl

set_option maxHeartbeats 4000000 in
theorem take2_v5 (X : Valuation τ sig (Elt F)) :
    StableHlo.after (hostOps1_1 (F := F)) X (Proc.devRef .tc main_v5) = X (Proc.devRef .tc main_v5) := by
  after_results <;> rfl

set_option maxHeartbeats 4000000 in
theorem take2_arg0 (X : Valuation τ sig (Elt F)) :
    StableHlo.after (hostOps1_1 (F := F)) X (Proc.devRef .tc main_arg0) = X (Proc.devRef .tc main_arg0) := by
  after_results <;> rfl

set_option maxHeartbeats 4000000 in
theorem take2_arg3 (X : Valuation τ sig (Elt F)) :
    StableHlo.after (hostOps1_1 (F := F)) X (Proc.devRef .tc main_arg3) = X (Proc.devRef .tc main_arg3) := by
  after_results <;> rfl

/-! ## The counts and the scattered sums -/

set_option maxHeartbeats 4000000 in
theorem sums_v15 (X : Valuation τ sig (Elt F)) :
    StableHlo.after (hostOps1_2 (F := F)) X (Proc.devRef .tc main_v15)
      = degrees (F := F) (X (Proc.devRef .tc main_v1)) (X (Proc.devRef .tc main_v3)) := by
  after_results <;> rfl

set_option maxHeartbeats 4000000 in
theorem sums_v18 (X : Valuation τ sig (Elt F)) :
    StableHlo.after (hostOps1_2 (F := F)) X (Proc.devRef .tc main_v18)
      = rowSums (F := F) (X (Proc.devRef .tc main_v1)) (X (Proc.devRef .tc main_v5)) := by
  after_results <;> rfl

set_option maxHeartbeats 4000000 in
theorem sums_v21 (X : Valuation τ sig (Elt F)) :
    StableHlo.after (hostOps1_2 (F := F)) X (Proc.devRef .tc main_v21)
      = rowSums (F := F) (X (Proc.devRef .tc main_v3)) (X (Proc.devRef .tc main_v6)) := by
  after_results <;> rfl

set_option maxHeartbeats 4000000 in
theorem sums_arg0 (X : Valuation τ sig (Elt F)) :
    StableHlo.after (hostOps1_2 (F := F)) X (Proc.devRef .tc main_arg0) = X (Proc.devRef .tc main_arg0) := by
  after_results <;> rfl

set_option maxHeartbeats 4000000 in
theorem sums_arg3 (X : Valuation τ sig (Elt F)) :
    StableHlo.after (hostOps1_2 (F := F)) X (Proc.devRef .tc main_arg3) = X (Proc.devRef .tc main_arg3) := by
  after_results <;> rfl

end Cert.KernelIdeal.Hand

end
-- ==== Proof.Spec.lean ====
/-
  The two programs' results as formulas of the inputs: node features `z : [100000, 48]`, the edge list
  `ei : [2, 1600000]` (row 0 the edges' first endpoints, row 1 their second endpoints, as 32-bit words) and the node
  factors `nf : [100000, 1]`. With z_reg[m] = nf[m] · z[m], the reference differentiates
  (1/N) · Σ_e ‖z_reg[first e] − z_reg[second e]‖² by reverse mode: each edge sends ±(diff · w + w · diff), w = 1/N,
  to its two endpoints, and the result is z − a · nf · (what the node received). The kernel counts a node's incident
  edge ends, sums the far endpoints' z_reg, and computes z − c · nf · (count · z_reg − S1 − S2). The two agree on real
  inputs when c = a · 2 · w (Algebra.lean).
-/
import Idealize.ShloMosaic.PureOps.Ideal.Laws
import Idealize.ShloMosaic.Lib.ValueIdx

noncomputable section

open scoped BigOperators

namespace Cert.LapSpec

open Idealize.ShloMosaic Idealize.ShloMosaic.ValueIdx

/-- A 32-bit index word read signed and clamped into the node range: what a gather does with a start index. -/
def node (w : BitVec 32) : Fin 100000 := ⟨min w.toInt.toNat (100000 - 1), by omega⟩

section
variable (z : (⟨2, ![100000, 48]⟩ : Shape).Idx → EReal) (ei : IVec ⟨2, ![2, 1600000]⟩ 32)
  (nf : (⟨2, ![100000, 1]⟩ : Shape).Idx → EReal)

/-- The edges whose first endpoint is node `n`. -/
def firstAt (n : Fin 100000) : Finset (Fin 1600000) :=
  Finset.univ.filter fun e => (ei (ix2 (0 : Fin 2) e)).toInt = (n.val : Int)

/-- The edges whose second endpoint is node `n`. -/
def secondAt (n : Fin 100000) : Finset (Fin 1600000) :=
  Finset.univ.filter fun e => (ei (ix2 (1 : Fin 2) e)).toInt = (n.val : Int)

/-- z_reg at (m, d), the factor on the left (the reference's and the second kernel's spelling). -/
def scaledL (m : Fin 100000) (d : Fin 48) : EReal := nf (ix2 m (0 : Fin 1)) * z (ix2 m d)

/-- z_reg at (m, d), the factor on the right (the first kernel's spelling). -/
def scaledR (m : Fin 100000) (d : Fin 48) : EReal := z (ix2 m d) * nf (ix2 m (0 : Fin 1))

/-- What edge `e` sends to its first endpoint in column `d` (and, negated, to its second). -/
def edgeTerm (w : EReal) (e : Fin 1600000) (d : Fin 48) : EReal :=
  (scaledL z nf (node (ei (ix2 (0 : Fin 2) e))) d - scaledL z nf (node (ei (ix2 (1 : Fin 2) e))) d) * w
    + w * (scaledL z nf (node (ei (ix2 (0 : Fin 2) e))) d - scaledL z nf (node (ei (ix2 (1 : Fin 2) e))) d)

/-- The reference's result at (n, d). -/
def refForm (a w : EReal) (n : Fin 100000) (d : Fin 48) : EReal :=
  z (ix2 n d) - a * (nf (ix2 n (0 : Fin 1)) *
    ((0 + ∑ e ∈ secondAt ei n, -(edgeTerm z ei nf w e d)) + (0 + ∑ e ∈ firstAt ei n, edgeTerm z ei nf w e d)))

/-- The kernel's result at (n, d). -/
def kernelForm (c : EReal) (n : Fin 100000) (d : Fin 48) : EReal :=
  z (ix2 n d) - c * (nf (ix2 n (0 : Fin 1)) *
    ((((0 + ∑ _e ∈ firstAt ei n, (1 : EReal)) + (0 + ∑ _e ∈ secondAt ei n, (1 : EReal))) * (nf (ix2 n (0 : Fin 1)) * z (ix2 n d))
        - (0 + ∑ e ∈ firstAt ei n, scaledR z nf (node (ei (ix2 (1 : Fin 2) e))) d))
      - (0 + ∑ e ∈ secondAt ei n, scaledR z nf (node (ei (ix2 (0 : Fin 2) e))) d)))

end

end Cert.LapSpec

end
-- ==== Proof.LibRowGather.lean ====
/-
  A row gather read at one entry. For the dimension numbers "result row e is the operand row its start index word
  names" (offset axis 1, collapsed slice axis 0, the start index map naming operand axis 0, the index vector of length
  one on axis 1, slice sizes (1, C)), the gather at row `e`, column `a` is the operand at row `min k (N - 1)`,
  column `a`, where `k` is the start index word of row `e` read as a signed integer and cut off below at 0. On operand
  axis 0 the slice starts at the clamped index word and the axis is collapsed, so nothing is added to it; on operand
  axis 1 the slice starts at 0 and the result's column is the offset.
-/
import Idealize.ShloMosaic.PureOps.Ideal.Laws
import Idealize.ShloMosaic.Lib.ValueIdx

noncomputable section

open scoped BigOperators

namespace Cert.LibRowGather

open Idealize.ShloMosaic Idealize.ShloMosaic.ValueIdx

/-- Those dimension numbers for an operand `[N, C]`, start indices `[E, 1]` and result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On operand axis 0 the slice starts at the index word of the result's row, read signed and clamped into
    `[0, N - 1]` (the slice size there is 1). -/
private theorem start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    (rowDims N C E wf).start j idx (0 : Fin 2) = min (idx (ix2 (j 0) (0 : Fin 1))).toInt.toNat (N - 1) := by
  unfold GatherDims.start
  rw [dif_pos (show (0 : Fin 2) ∈ (rowDims N C E wf).startIndexMap from List.mem_singleton.mpr rfl)]
  have hsi : (rowDims N C E wf).siIdx j ⟨List.idxOf (0 : Fin 2) (rowDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On operand axis 1, which the start index map does not name, the slice starts at 0. -/
private theorem start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    (rowDims N C E wf).start j idx (1 : Fin 2) = 0 := by
  unfold GatherDims.start
  rw [dif_neg (show ¬ (1 : Fin 2) ∈ ([0] : List (Fin 2)) by decide)]

/-- Operand axis 0 is collapsed: the offset coordinate there is 0. -/
private theorem offCoord0 {N C E : Nat}
    (wf : GatherDims.WF ⟨2, ![N, C]⟩ ⟨2, ![E, 1]⟩ ⟨2, ![E, C]⟩ [1] [0] [] [0] [] 1 ![1, C])
    (j : (⟨2, ![E, C]⟩ : Shape).Idx) :
    (rowDims N C E wf).offCoord j (0 : Fin 2) = 0 :=
  GatherDims.offCoord_eq_zero _ _ _ (fun h => ((GatherDims.mem_sKept _ _).mp h).1 (List.mem_singleton.mpr rfl))

/-- On operand axis 1 the offset coordinate is the result's column. -/
private theorem offCoord1 {N C E : Nat}
    (wf : GatherDims.WF ⟨2, ![N, C]⟩ ⟨2, ![E, 1]⟩ ⟨2, ![E, C]⟩ [1] [0] [] [0] [] 1 ![1, C])
    (j : (⟨2, ![E, C]⟩ : Shape).Idx) :
    (rowDims N C E wf).offCoord j (1 : Fin 2) = (j 1).val := by
  unfold GatherDims.offCoord
  have hp : (1 : Fin 2) ∈ (rowDims N C E wf).sKept :=
    (GatherDims.mem_sKept _ _).mpr ⟨show ¬ (1 : Fin 2) ∈ ([0] : List (Fin 2)) by decide, List.not_mem_nil⟩
  rw [dif_pos hp]
  rfl

/-- THE ROW GATHER READ AT `(e, a)`: the operand at the row the start index word of row `e` names, read signed and
    clamped into `[0, N - 1]`, same column. -/
theorem gather_row_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (a : Fin C) :
    Host.gather (rowDims N C E wf) x idx (ix2 e a)
      = x (ix2 (⟨min (idx (ix2 e (0 : Fin 1))).toInt.toNat (N - 1), by omega⟩ : Fin N) a) := by
  unfold Host.gather
  congr 1
  funext b
  refine Fin.ext ?_
  match b with
  | ⟨0, _⟩ =>
    show (rowDims N C E wf).start (ix2 e a) idx (0 : Fin 2) + (rowDims N C E wf).batchCoord (ix2 e a) (0 : Fin 2)
      + (rowDims N C E wf).offCoord (ix2 e a) (0 : Fin 2) = min (idx (ix2 e (0 : Fin 1))).toInt.toNat (N - 1)
    rw [GatherDims.batchCoord_eq_zero _ _ _ List.not_mem_nil, offCoord0, start0]
    rfl
  | ⟨1, _⟩ =>
    show (rowDims N C E wf).start (ix2 e a) idx (1 : Fin 2) + (rowDims N C E wf).batchCoord (ix2 e a) (1 : Fin 2)
      + (rowDims N C E wf).offCoord (ix2 e a) (1 : Fin 2) = a.val
    rw [GatherDims.batchCoord_eq_zero _ _ _ List.not_mem_nil, offCoord1, start1]
    simp only [Nat.zero_add, Nat.add_zero]
    rfl

end Cert.LibRowGather

end
-- ==== Proof.LibRowScatter.lean ====
/-
  A row scatter-add read at one entry. For the dimension numbers "each update row e lands on the operand row its index
  word names" (update window axis 1, inserted window axis 0, the index vector of length one on axis 1), the accumulating
  scatter at row `r`, column `a` is the operand there plus the sum, over the update rows `e` whose index word read as a
  signed integer is `r`, of the update at (e, a). An index word that names no row contributes nothing.
-/
import Idealize.ShloMosaic.PureOps.Ideal.Laws
import Idealize.ShloMosaic.Lib.ValueIdx

noncomputable section

open scoped BigOperators

namespace Cert.LibRowScatter

open Idealize.ShloMosaic Idealize.ShloMosaic.ValueIdx

/-- Those dimension numbers for an operand `[R, C]`, scatter indices `[E, 1]` and updates `[E, C]`. -/
abbrev rowDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- On operand axis 0 the window starts at the index word of the update's row, read signed. -/
private theorem start0 {R C E w : Nat}
    (wf : ScatterDims.WF ⟨2, ![R, C]⟩ ⟨2, ![E, 1]⟩ ⟨2, ![E, C]⟩ [1] [0] [0] 1)
    (idx : IVec ⟨2, ![E, 1]⟩ w) (j : (⟨2, ![E, C]⟩ : Shape).Idx) :
    (rowDims R C E wf).start j idx (0 : Fin 2) = (idx (ix2 (j 0) (0 : Fin 1))).toInt := by
  unfold ScatterDims.start
  rw [dif_pos (show (0 : Fin 2) ∈ (rowDims R C E wf).scatterDimsToOperandDims from List.mem_singleton.mpr rfl)]
  have hsi : (rowDims R C E wf).siIdx j ⟨List.idxOf (0 : Fin 2) (rowDims R C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On operand axis 1, which the index map does not name, the window starts at 0. -/
private theorem start1 {R C E w : Nat}
    (wf : ScatterDims.WF ⟨2, ![R, C]⟩ ⟨2, ![E, 1]⟩ ⟨2, ![E, C]⟩ [1] [0] [0] 1)
    (idx : IVec ⟨2, ![E, 1]⟩ w) (j : (⟨2, ![E, C]⟩ : Shape).Idx) :
    (rowDims R C E wf).start j idx (1 : Fin 2) = 0 := by
  unfold ScatterDims.start
  rw [dif_neg (show ¬ (1 : Fin 2) ∈ ([0] : List (Fin 2)) by decide)]

/-- Operand axis 0 is an inserted window axis: the window coordinate there is 0. -/
private theorem window0 {R C E : Nat}
    (wf : ScatterDims.WF ⟨2, ![R, C]⟩ ⟨2, ![E, 1]⟩ ⟨2, ![E, C]⟩ [1] [0] [0] 1)
    (j : (⟨2, ![E, C]⟩ : Shape).Idx) :
    (rowDims R C E wf).window j (0 : Fin 2) = 0 := by
  unfold ScatterDims.window
  have hn : (0 : Fin 2) ∉ (rowDims R C E wf).sKept :=
    show ¬ (0 : Fin 2) ∈ (List.finRange 2).filter (· ∉ ([0] : List (Fin 2))) by decide
  rw [dif_neg hn]

/-- On operand axis 1 the window coordinate is the update's column. -/
private theorem window1 {R C E : Nat}
    (wf : ScatterDims.WF ⟨2, ![R, C]⟩ ⟨2, ![E, 1]⟩ ⟨2, ![E, C]⟩ [1] [0] [0] 1)
    (j : (⟨2, ![E, C]⟩ : Shape).Idx) :
    (rowDims R C E wf).window j (1 : Fin 2) = (j 1).val := by
  unfold ScatterDims.window
  have hp : (1 : Fin 2) ∈ (rowDims R C E wf).sKept :=
    show (1 : Fin 2) ∈ (List.finRange 2).filter (· ∉ ([0] : List (Fin 2))) by decide
  rw [dif_pos hp]
  rfl

/-- Update index `j` lands at (r, a) exactly when its row's index word reads `r` and its column is `a`. -/
private theorem resultIdx_iff {R C E w : Nat}
    (wf : ScatterDims.WF ⟨2, ![R, C]⟩ ⟨2, ![E, 1]⟩ ⟨2, ![E, C]⟩ [1] [0] [0] 1)
    (idx : IVec ⟨2, ![E, 1]⟩ w) (r : Fin R) (a : Fin C) (j : (⟨2, ![E, C]⟩ : Shape).Idx) :
    (rowDims R C E wf).resultIdx? j idx = some (ix2 r a)
      ↔ (idx (ix2 (j 0) (0 : Fin 1))).toInt = (r.val : Int) ∧ (j 1).val = a.val := by
  have hj1 : (j 1).val < C := idx2_lt1 j
  unfold ScatterDims.resultIdx?
  split
  · rename_i h
    rw [Option.some.injEq]
    have h0 := h (0 : Fin 2)
    have h1 := h (1 : Fin 2)
    rw [start0, window0] at h0
    rw [start1, window1] at h1
    constructor
    · intro hEq
      have e0 := congrArg (fun f => (f (0 : Fin 2)).val) hEq
      have e1 := congrArg (fun f => (f (1 : Fin 2)).val) hEq
      simp only [start0, start1, window0, window1] at e0 e1
      change _ = r.val at e0
      change _ = a.val at e1
      constructor
      · omega
      · omega
    · rintro ⟨g0, g1⟩
      funext b
      refine Fin.ext ?_
      match b with
      | ⟨0, _⟩ =>
        show ((rowDims R C E wf).start j idx (0 : Fin 2) + ((rowDims R C E wf).window j (0 : Fin 2) : Int)).toNat = r.val
        rw [start0, window0]; omega
      | ⟨1, _⟩ =>
        show ((rowDims R C E wf).start j idx (1 : Fin 2) + ((rowDims R C E wf).window j (1 : Fin 2) : Int)).toNat = a.val
        rw [start1, window1]; omega
  · rename_i h
    constructor
    · intro hEq; exact absurd hEq (by simp)
    · rintro ⟨g0, g1⟩
      exfalso
      apply h
      intro b
      match b with
      | ⟨0, _⟩ =>
        show 0 ≤ (rowDims R C E wf).start j idx (0 : Fin 2) + ((rowDims R C E wf).window j (0 : Fin 2) : Int) ∧
          (rowDims R C E wf).start j idx (0 : Fin 2) + ((rowDims R C E wf).window j (0 : Fin 2) : Int) < (R : Int)
        rw [start0, window0]; have := r.isLt; omega
      | ⟨1, _⟩ =>
        show 0 ≤ (rowDims R C E wf).start j idx (1 : Fin 2) + ((rowDims R C E wf).window j (1 : Fin 2) : Int) ∧
          (rowDims R C E wf).start j idx (1 : Fin 2) + ((rowDims R C E wf).window j (1 : Fin 2) : Int) < (C : Int)
        rw [start1, window1]; omega

/-- The accumulating row scatter at entry (r, a). -/
theorem scatterAdd_row_apply {R C E w : Nat}
    (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w) (upd : (⟨2, ![E, C]⟩ : Shape).Idx → EReal)
    (r : Fin R) (a : Fin C) :
    Ideal.hostScatterAdd (rowDims R C E wf) x idx upd (ix2 r a)
      = x (ix2 r a) + ∑ e ∈ Finset.univ.filter (fun e : Fin E => (idx (ix2 e (0 : Fin 1))).toInt = (r.val : Int)), upd (ix2 e a) := by
  have hback : ∀ j : (⟨2, ![E, C]⟩ : Shape).Idx, (j 1).val = a.val → ix2 (j 0 : Fin E) a = j := by
    intro j h
    funext b
    match b with
    | ⟨0, _⟩ => rfl
    | ⟨1, _⟩ => exact (Fin.ext h).symm
  unfold Ideal.hostScatterAdd
  congr 1
  refine Finset.sum_nbij' (fun j => (j 0 : Fin E)) (fun e => ix2 e a) ?_ ?_ ?_ ?_ ?_
  · intro j hj
    rw [Finset.mem_filter] at hj
    exact Finset.mem_filter.mpr ⟨Finset.mem_univ _, ((resultIdx_iff wf idx r a j).mp hj.2).1⟩
  · intro e he
    rw [Finset.mem_filter] at he ⊢
    exact ⟨Finset.mem_univ _, (resultIdx_iff wf idx r a (ix2 e a)).mpr ⟨he.2, rfl⟩⟩
  · intro j hj
    rw [Finset.mem_filter] at hj
    exact hback j ((resultIdx_iff wf idx r a j).mp hj.2).2
  · intro e _
    rfl
  · intro j hj
    rw [Finset.mem_filter] at hj
    exact congrArg upd (hback j ((resultIdx_iff wf idx r a j).mp hj.2).2).symm

end Cert.LibRowScatter

end
-- ==== Proof.LibVecScatter.lean ====
/-
  A vector scatter-add read at one entry. For the dimension numbers "each update e lands on the operand entry its index
  word names" (no update window axis, inserted window axis 0, the index vector of length one on axis 1), the accumulating
  scatter at entry `r` is the operand there plus the sum, over the updates `e` whose index word read as a signed integer
  is `r`, of the update at `e`. An index word that names no entry contributes nothing.
-/
import Idealize.ShloMosaic.PureOps.Ideal.Laws
import Idealize.ShloMosaic.Lib.ValueIdx

noncomputable section

open scoped BigOperators

namespace Cert.LibVecScatter

open Idealize.ShloMosaic Idealize.ShloMosaic.ValueIdx

/-- Those dimension numbers for an operand `[R]`, scatter indices `[E, 1]` and updates `[E]`. -/
abbrev vecDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

/-- On the operand's one axis the window starts at the index word of the update, read signed. -/
private theorem start0 {R E w : Nat} (wf : ScatterDims.WF ⟨1, ![R]⟩ ⟨2, ![E, 1]⟩ ⟨1, ![E]⟩ [] [0] [0] 1)
    (idx : IVec ⟨2, ![E, 1]⟩ w) (j : (⟨1, ![E]⟩ : Shape).Idx) :
    (vecDims R E wf).start j idx (0 : Fin 1) = (idx (ix2 (j 0) (0 : Fin 1))).toInt := by
  unfold ScatterDims.start
  rw [dif_pos (show (0 : Fin 1) ∈ (vecDims R E wf).scatterDimsToOperandDims from List.mem_singleton.mpr rfl)]
  have hsi : (vecDims R E wf).siIdx j ⟨List.idxOf (0 : Fin 1) (vecDims R E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's one axis is an inserted window axis: the window coordinate there is 0. -/
private theorem window0 {R E : Nat} (wf : ScatterDims.WF ⟨1, ![R]⟩ ⟨2, ![E, 1]⟩ ⟨1, ![E]⟩ [] [0] [0] 1)
    (j : (⟨1, ![E]⟩ : Shape).Idx) :
    (vecDims R E wf).window j (0 : Fin 1) = 0 := by
  unfold ScatterDims.window
  have hn : (0 : Fin 1) ∉ (vecDims R E wf).sKept :=
    show ¬ (0 : Fin 1) ∈ (List.finRange 1).filter (· ∉ ([0] : List (Fin 1))) by decide
  rw [dif_neg hn]

/-- Update `j` lands at entry `r` exactly when its index word reads `r`. -/
private theorem resultIdx_iff {R E w : Nat} (wf : ScatterDims.WF ⟨1, ![R]⟩ ⟨2, ![E, 1]⟩ ⟨1, ![E]⟩ [] [0] [0] 1)
    (idx : IVec ⟨2, ![E, 1]⟩ w) (r : Fin R) (j : (⟨1, ![E]⟩ : Shape).Idx) :
    (vecDims R E wf).resultIdx? j idx = some (ix1 r) ↔ (idx (ix2 (j 0) (0 : Fin 1))).toInt = (r.val : Int) := by
  unfold ScatterDims.resultIdx?
  split
  · rename_i h
    rw [Option.some.injEq]
    have h0 := h (0 : Fin 1)
    rw [start0, window0] at h0
    constructor
    · intro hEq
      have e0 := congrArg (fun f => (f (0 : Fin 1)).val) hEq
      simp only [start0, window0] at e0
      change _ = r.val at e0
      omega
    · intro g0
      funext b
      refine Fin.ext ?_
      match b with
      | ⟨0, _⟩ =>
        show ((vecDims R E wf).start j idx (0 : Fin 1) + ((vecDims R E wf).window j (0 : Fin 1) : Int)).toNat = r.val
        rw [start0, window0]; omega
  · rename_i h
    constructor
    · intro hEq; exact absurd hEq (by simp)
    · intro g0
      exfalso
      apply h
      intro b
      match b with
      | ⟨0, _⟩ =>
        show 0 ≤ (vecDims R E wf).start j idx (0 : Fin 1) + ((vecDims R E wf).window j (0 : Fin 1) : Int) ∧
          (vecDims R E wf).start j idx (0 : Fin 1) + ((vecDims R E wf).window j (0 : Fin 1) : Int) < (R : Int)
        rw [start0, window0]; have := r.isLt; omega

/-- The accumulating vector scatter at entry `r`. -/
theorem scatterAdd_vec_apply {R E w : Nat} (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal) (r : Fin R) :
    Ideal.hostScatterAdd (vecDims R E wf) x idx upd (ix1 r)
      = x (ix1 r) + ∑ e ∈ Finset.univ.filter (fun e : Fin E => (idx (ix2 e (0 : Fin 1))).toInt = (r.val : Int)), upd (ix1 e) := by
  have hback : ∀ j : (⟨1, ![E]⟩ : Shape).Idx, ix1 (j 0 : Fin E) = j := fun j => (eq_ix1 j).symm
  unfold Ideal.hostScatterAdd
  congr 1
  refine Finset.sum_nbij' (fun j => (j 0 : Fin E)) (fun e => ix1 e) ?_ ?_ ?_ ?_ ?_
  · intro j hj
    rw [Finset.mem_filter] at hj
    exact Finset.mem_filter.mpr ⟨Finset.mem_univ _, (resultIdx_iff wf idx r j).mp hj.2⟩
  · intro e he
    rw [Finset.mem_filter] at he ⊢
    exact ⟨Finset.mem_univ _, (resultIdx_iff wf idx r (ix1 e)).mpr he.2⟩
  · intro j _
    exact hback j
  · intro e _
    rfl
  · intro j _
    exact congrArg upd (hback j).symm

end Cert.LibVecScatter

end
-- ==== Proof.LibAndAll.lean ====
/-
  A reduce by `and` of an all-ones one-bit array. When every element of the operand is 1 and the initial value is 1,
  the reduction is 1 at every result index: at each result index it is a left fold by `and`, started at the initial
  value's element, over the operand elements that reduce into that index, and `1 and 1 = 1` at every step. This is the
  converse of reading a reduction that came out 1 back to its elements.
-/
import Idealize.ShloMosaic.Lib.ReduceAll

namespace Cert.LibAndAll

open Idealize.ShloMosaic

/-- A left fold by `and` that starts at 1 and meets only 1s is 1. -/
private theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, IntOp.andi_eq_one.2 ⟨rfl, rfl⟩]
    exact foldl_andi_of_all f l fun n hn => h n (List.mem_cons_of_mem _ hn)

/-- A reduce by `and` of an array whose every element is 1, from an initial value whose every element is 1, is 1 at
    every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all x _ fun n _ => hx n

end Cert.LibAndAll
-- ==== Proof.KernelTake.lean ====
/-
  The kernel program's host-side functions read at one entry: the two rows of the edge list as vectors of words, the
  row gather (on index words inside the node range the wrap and the out-of-range fill do nothing, and the row read is
  the one the word names), the degree counts and the sums of gathered rows scattered to the nodes, each as a sum over
  the edges whose word is the node's number.
-/
import proofs.«419742_j2989297238461_3_alg».proof.Proof.KernelHost
import proofs.«419742_j2989297238461_3_alg».proof.Proof.Spec
import proofs.«419742_j2989297238461_3_alg».proof.Proof.LibRowGather
import proofs.«419742_j2989297238461_3_alg».proof.Proof.LibRowScatter
import proofs.«419742_j2989297238461_3_alg».proof.Proof.LibVecScatter
import proofs.«419742_j2989297238461_3_alg».proof.Proof.LibAndAll
import Idealize.ShloMosaic.Lib.ValueIdx
import Idealize.ShloMosaic.Lib.Pipeline.Value
import Idealize.ShloMosaic.Lib.Affine

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F] [Named F]

/-! ## The edge list's rows -/

/-- Position `e` of the one row of a [1, E] array and position `e` of an [E] vector are the same row-major position. -/
theorem rowMajor_row_vec (e : Fin 1600000) :
    (S1x1600000.rowMajor (ix2 (0 : Fin 1) e)).val = (S1600000.rowMajor (ix1 e)).val := by
  rw [Shape.rowMajor_val_two, Shape.rowMajor_val_one]
  show 0 * 1600000 + e.val = e.val
  omega

/-- The first endpoints' vector at `e` is the edge list at (0, e). -/
theorem firstWords_apply (x2 : (⟨S2x1600000, .i32⟩ : BufTy).Contents (Elt F)) (e : Fin 1600000) :
    firstWords (F := F) x2 (ix1 e) = x2 (ix2 (0 : Fin 2) e) := by
  unfold firstWords
  rw [shapeCast_apply _ Facts₀.shapeCasts_S1x1600000_S1600000 (ix1 e) (ix2 (0 : Fin 1) e) (rowMajor_row_vec e)]
  exact extractStridedSlice_apply ![0, 0] x2 Facts₀.slices_S2x1600000_S1x1600000_0_0 (ix2 (0 : Fin 1) e) (ix2 (0 : Fin 2) e)
    (fun a => match a with
      | ⟨0, _⟩ => by show 0 = 0 + 0; omega
      | ⟨1, _⟩ => by show e.val = 0 + e.val; omega)

/-- The second endpoints' vector at `e` is the edge list at (1, e). -/
theorem secondWords_apply (x2 : (⟨S2x1600000, .i32⟩ : BufTy).Contents (Elt F)) (e : Fin 1600000) :
    secondWords (F := F) x2 (ix1 e) = x2 (ix2 (1 : Fin 2) e) := by
  unfold secondWords
  rw [shapeCast_apply _ Facts₀.shapeCasts_S1x1600000_S1600000 (ix1 e) (ix2 (0 : Fin 1) e) (rowMajor_row_vec e)]
  exact extractStridedSlice_apply ![1, 0] x2 Facts₀.slices_S2x1600000_S1x1600000_1_0 (ix2 (0 : Fin 1) e) (ix2 (1 : Fin 2) e)
    (fun a => match a with
      | ⟨0, _⟩ => by show 1 = 1 + 0; omega
      | ⟨1, _⟩ => by show e.val = 0 + e.val; omega)

/-! ## The row gather on words inside the node range -/

/-- A word that is not negative fails the test "below 0". -/
theorem slt_zero_of_nonneg (v : BitVec 32) (h : 0 ≤ v.toInt) : IntOp.cmpi .slt v 0#32 = 0#1 := by
  refine eq_zero_of_ne_one fun h1 => ?_
  rw [IntOp.cmpi_slt] at h1
  have h0 : (0#32 : BitVec 32).toInt = 0 := by decide
  omega

/-- A word in [0, 100000) passes both bounds tests. -/
theorem bounds_of_range (v : BitVec 32) (h : 0 ≤ v.toInt ∧ v.toInt < 100000) :
    IntOp.andi (IntOp.cmpi .sge v 0#32) (IntOp.cmpi .sle v 99999#32) = 1#1 := by
  have h0 : (0#32 : BitVec 32).toInt = 0 := by decide
  have h1 : (99999#32 : BitVec 32).toInt = 99999 := by decide
  rw [IntOp.andi_eq_one, IntOp.cmpi_sge, IntOp.cmpi_sle, h0, h1]
  omega

/-- On words that are not negative the wrap does nothing: the column of start indices holds the words themselves. -/
theorem wrappedCol_apply (w : (⟨S1600000, .i32⟩ : BufTy).Contents (Elt F)) (hw : ∀ e, 0 ≤ (w e).toInt)
    (i : S1600000x1.Idx) : wrappedCol (F := F) w i = w (ix1 (i 0)) := by
  unfold wrappedCol
  rw [broadcastInDim_apply _ Facts₀.bcast_S1600000_S1600000x1_0 _ i (ix1 (i 0)) (fun a => match a with
    | ⟨0, _⟩ => by show (i 0).val = if (1600000 : Nat) = 1 then 0 else (i 0).val; rw [if_neg (by decide)])]
  rw [select_apply]
  have hc : cmpi .slt w (broadcastInDim S1600000 ![] Facts₀.bcast_S_S1600000 (constantI S_ 32 0#32)) (ix1 (i 0)) = 0#1 :=
    slt_zero_of_nonneg (w (ix1 (i 0))) (hw _)
  rw [hc, select_zero]

/-- On words inside the node range every start index passes the bounds test. -/
theorem inBounds_apply (w : (⟨S1600000, .i32⟩ : BufTy).Contents (Elt F))
    (hw : ∀ e, 0 ≤ (w e).toInt ∧ (w e).toInt < 100000) (j : S1600000.Idx) :
    inBounds (F := F) (wrappedCol (F := F) w) j = 1#1 := by
  unfold inBounds
  refine Cert.LibAndAll.reduce_andi_of_all _ _ _ _ (fun i => ?_) (fun _ => rfl) j
  have hv : wrappedCol (F := F) w i = w (ix1 (i 0)) := wrappedCol_apply w (fun e => (hw e).1) i
  show IntOp.andi (IntOp.cmpi .sge (wrappedCol (F := F) w i) 0#32) (IntOp.cmpi .sle (wrappedCol (F := F) w i) 99999#32) = 1#1
  rw [hv]
  exact bounds_of_range _ (hw _)

/-- THE ROW GATHER READ AT (e, d): on words inside the node range, the row of `zr` the word names. -/
theorem takeRows_apply (zr : (⟨S100000x48, .f32⟩ : BufTy).Contents (Elt Ideal)) (w : (⟨S1600000, .i32⟩ : BufTy).Contents (Elt Ideal))
    (hw : ∀ e, 0 ≤ (w e).toInt ∧ (w e).toInt < 100000) (e : Fin 1600000) (d : Fin 48) :
    takeRows (F := Ideal) zr w (ix2 e d) = zr (ix2 (Cert.LapSpec.node (w (ix1 e))) d) := by
  unfold takeRows
  rw [select_apply]
  have hm : broadcastInDim S1600000x48 ![0] Facts₀.bcast_S1600000_S1600000x48_0
      (inBounds (F := Ideal) (wrappedCol (F := Ideal) w)) (ix2 e d) = 1#1 := by
    unfold broadcastInDim
    exact inBounds_apply w hw _
  rw [hm, select_one]
  have hG : gather_S100000x48_S1600000x1_S1600000x48_1_0_n_n_0_1_148
      = Cert.LibRowGather.rowDims 100000 48 1600000 Facts₀.gather_S100000x48_S1600000x1_S1600000x48_1_0_n_n_0_1_148_wf := rfl
  rw [hG, Cert.LibRowGather.gather_row_apply (by decide)]
  have hv : wrappedCol (F := Ideal) w (ix2 e (0 : Fin 1)) = w (ix1 e) := wrappedCol_apply w (fun e => (hw e).1) _
  refine congrArg zr (congrArg (fun r => ix2 r d) (Fin.ext ?_))
  show min (wrappedCol (F := Ideal) w (ix2 e (0 : Fin 1))).toInt.toNat (100000 - 1) = min (w (ix1 e)).toInt.toNat (100000 - 1)
  rw [hv]

/-! ## The scatters -/

/-- A vector of words laid out as a column of scatter indices reads, at (e, 0), the vector at `e`. -/
theorem col_apply (w : (⟨S1600000, .i32⟩ : BufTy).Contents (Elt F)) (e : Fin 1600000) :
    broadcastInDim S1600000x1 ![0] Facts₀.bcast_S1600000_S1600000x1_0 w (ix2 e (0 : Fin 1)) = w (ix1 e) :=
  broadcastInDim_apply _ Facts₀.bcast_S1600000_S1600000x1_0 w (ix2 e (0 : Fin 1)) (ix1 e) (fun a => match a with
    | ⟨0, _⟩ => by show e.val = if (1600000 : Nat) = 1 then 0 else e.val; rw [if_neg (by decide)])

/-- A scalar float constant broadcast to any shape reads, everywhere, the value its bit pattern denotes. -/
theorem bcast_constF_apply {t : Shape} (hb : S_.BroadcastsInDim t (![] : Fin 0 → Fin t.rank)) (b : BitVec FTy.f32.bits)
    (j : t.Idx) : broadcastInDim t ![] hb (constant (F := Ideal) S_ .f32 b) j = Ideal.ofBits .f32 b := by
  unfold broadcastInDim
  exact constant_apply b _

/-- The accumulating vector scatter of a constant update onto a constant operand, the index column given by a vector of
    words: at `r`, the operand's constant plus the update's constant once for each position whose word is `r`. -/
theorem scatter_vec_const {R E : Nat} (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ 32) (upd : (⟨1, ![E]⟩ : Shape).Idx → EReal)
    (w : (⟨1, ![E]⟩ : Shape).Idx → BitVec 32) (c₀ c₁ : EReal)
    (hx : ∀ k, x k = c₀) (hidx : ∀ e : Fin E, idx (ix2 e (0 : Fin 1)) = w (ix1 e)) (hupd : ∀ k, upd k = c₁) (r : Fin R) :
    Ideal.hostScatterAdd (Cert.LibVecScatter.vecDims R E wf) x idx upd (ix1 r)
      = c₀ + ∑ _e ∈ Finset.univ.filter (fun e : Fin E => (w (ix1 e)).toInt = (r.val : Int)), c₁ := by
  rw [Cert.LibVecScatter.scatterAdd_vec_apply, hx]
  refine congrArg (c₀ + ·) ?_
  exact Finset.sum_congr (Finset.filter_congr fun e _ => by rw [hidx]) fun e _ => hupd _

/-- The accumulating row scatter onto a constant operand, the index column given by a vector of words: at (r, a), the
    operand's constant plus the update rows of the positions whose word is `r`, in column `a`. -/
theorem scatter_row_const {R C E : Nat} (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ 32) (upd : (⟨2, ![E, C]⟩ : Shape).Idx → EReal)
    (w : (⟨1, ![E]⟩ : Shape).Idx → BitVec 32) (c₀ : EReal)
    (hx : ∀ k, x k = c₀) (hidx : ∀ e : Fin E, idx (ix2 e (0 : Fin 1)) = w (ix1 e)) (r : Fin R) (a : Fin C) :
    Ideal.hostScatterAdd (Cert.LibRowScatter.rowDims R C E wf) x idx upd (ix2 r a)
      = c₀ + ∑ e ∈ Finset.univ.filter (fun e : Fin E => (w (ix1 e)).toInt = (r.val : Int)), upd (ix2 e a) := by
  rw [Cert.LibRowScatter.scatterAdd_row_apply, hx]
  refine congrArg (c₀ + ·) ?_
  exact Finset.sum_congr (Finset.filter_congr fun e _ => by rw [hidx]) fun _ _ => rfl

end Cert.KernelIdeal.Hand

end
-- ==== Proof.KernelSums.lean ====
/-
  The degree counts and the scattered row sums read at one entry: each is the zero it starts from plus a sum over the
  edges whose index word is the node's number — of ones for the counts, of the gathered row's entry for the sums.
-/
import proofs.«419742_j2989297238461_3_alg».proof.Proof.KernelTake

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

/-- The program's row scatter record is the row scatter's dimension numbers. -/
theorem rowScatter_eq : scatter_S100000x48_S1600000x1_S1600000x48_1_0_0_1
    = Cert.LibRowScatter.rowDims 100000 48 1600000 Facts₀.scatter_S100000x48_S1600000x1_S1600000x48_1_0_0_1_wf := rfl

/-- The program's vector scatter record is the vector scatter's dimension numbers. -/
theorem vecScatter_eq : scatter_S100000_S1600000x1_S1600000_n_0_0_1
    = Cert.LibVecScatter.vecDims 100000 1600000 Facts₀.scatter_S100000_S1600000x1_S1600000_n_0_0_1_wf := rfl

/-- An accumulating row scatter read at (n, d). -/
theorem rowScattered (x : (⟨S100000x48, .f32⟩ : BufTy).Contents (Elt Ideal)) (idx : (⟨S1600000x1, .i32⟩ : BufTy).Contents (Elt Ideal))
    (upd : (⟨S1600000x48, .f32⟩ : BufTy).Contents (Elt Ideal)) (n : Fin 100000) (d : Fin 48) :
    Host.scatterAdd (F := Ideal) (φ := .f32) scatter_S100000x48_S1600000x1_S1600000x48_1_0_0_1 x idx upd (ix2 n d)
      = x (ix2 n d) + ∑ e ∈ Finset.univ.filter (fun e : Fin 1600000 => (idx (ix2 e (0 : Fin 1))).toInt = (n.val : Int)),
          upd (ix2 e d) := by
  unfold Host.scatterAdd
  rw [Ideal.hostScatterAdd_def, rowScatter_eq, Cert.LibRowScatter.scatterAdd_row_apply]

/-- An accumulating vector scatter read at n. -/
theorem vecScattered (x : (⟨S100000, .f32⟩ : BufTy).Contents (Elt Ideal)) (idx : (⟨S1600000x1, .i32⟩ : BufTy).Contents (Elt Ideal))
    (upd : (⟨S1600000, .f32⟩ : BufTy).Contents (Elt Ideal)) (n : Fin 100000) :
    Host.scatterAdd (F := Ideal) (φ := .f32) scatter_S100000_S1600000x1_S1600000_n_0_0_1 x idx upd (ix1 n)
      = x (ix1 n) + ∑ e ∈ Finset.univ.filter (fun e : Fin 1600000 => (idx (ix2 e (0 : Fin 1))).toInt = (n.val : Int)),
          upd (ix1 e) := by
  unfold Host.scatterAdd
  rw [Ideal.hostScatterAdd_def, vecScatter_eq, Cert.LibVecScatter.scatterAdd_vec_apply]

/-- The sums of rows `g` scattered to the nodes the words `w` name, at (n, d). -/
theorem rowSums_apply (w : (⟨S1600000, .i32⟩ : BufTy).Contents (Elt Ideal)) (g : (⟨S1600000x48, .f32⟩ : BufTy).Contents (Elt Ideal)) (n : Fin 100000) (d : Fin 48) :
    rowSums (F := Ideal) w g (ix2 n d)
      = Ideal.ofBits .f32 0x00000000#32 + ∑ e ∈ Finset.univ.filter (fun e : Fin 1600000 => (w (ix1 e)).toInt = (n.val : Int)), g (ix2 e d) := by
  unfold rowSums
  rw [rowScattered, bcast_constF_apply]
  refine congrArg (Ideal.ofBits .f32 0x00000000#32 + ·) ?_
  exact Finset.sum_congr (Finset.filter_congr fun e _ => by rw [col_apply]) fun _ _ => rfl

/-- Ones scattered from zero to the nodes the words name, at n: the number of positions whose word is n. -/
theorem count_apply (w : (⟨S1600000, .i32⟩ : BufTy).Contents (Elt Ideal)) (n : Fin 100000) :
    Host.scatterAdd (F := Ideal) (φ := .f32) scatter_S100000_S1600000x1_S1600000_n_0_0_1
        (broadcastInDim S100000 ![] Facts₀.bcast_S_S100000 (constant S_ .f32 0x00000000#32))
        (broadcastInDim S1600000x1 ![0] Facts₀.bcast_S1600000_S1600000x1_0 w)
        (broadcastInDim S1600000 ![] Facts₀.bcast_S_S1600000 (constant S_ .f32 0x3F800000#32)) (ix1 n)
      = Ideal.ofBits .f32 0x00000000#32 + ∑ _e ∈ Finset.univ.filter (fun e : Fin 1600000 => (w (ix1 e)).toInt = (n.val : Int)), Ideal.ofBits .f32 0x3F800000#32 := by
  rw [vecScattered, bcast_constF_apply]
  refine congrArg (Ideal.ofBits .f32 0x00000000#32 + ·) ?_
  exact Finset.sum_congr (Finset.filter_congr fun e _ => by rw [col_apply]) fun e _ => bcast_constF_apply _ _ _

/-- Position n of a vector and position (n, 0) of the column it is reshaped to are the same row-major position. -/
theorem rowMajor_vec_col (n : Fin 100000) :
    (S100000.rowMajor (ix1 n)).val = (S100000x1.rowMajor (ix2 n (0 : Fin 1))).val := by
  rw [Shape.rowMajor_val_two, Shape.rowMajor_val_one]
  show n.val = n.val * 1 + 0
  omega

/-- The degree column at (n, 0): the edges counted at their first endpoint plus those counted at their second. -/
theorem degrees_apply (w1 w3 : (⟨S1600000, .i32⟩ : BufTy).Contents (Elt Ideal)) (n : Fin 100000) :
    degrees (F := Ideal) w1 w3 (ix2 n (0 : Fin 1))
      = (Ideal.ofBits .f32 0x00000000#32 + ∑ _e ∈ Finset.univ.filter (fun e : Fin 1600000 => (w1 (ix1 e)).toInt = (n.val : Int)), Ideal.ofBits .f32 0x3F800000#32)
        + (Ideal.ofBits .f32 0x00000000#32 + ∑ _e ∈ Finset.univ.filter (fun e : Fin 1600000 => (w3 (ix1 e)).toInt = (n.val : Int)), Ideal.ofBits .f32 0x3F800000#32) := by
  unfold degrees
  rw [shapeCast_apply _ Facts₀.shapeCasts_S100000_S100000x1 (ix2 n (0 : Fin 1)) (ix1 n) (rowMajor_vec_col n)]
  rw [addf_apply, count_apply, count_apply]

end Cert.KernelIdeal.Hand

end
-- ==== Proof.Consts.lean ====
/-
  The float constants the two programs spell, as the extended reals their bit patterns denote: the step 0.1 (the nearest
  binary32, 13421773 · 2⁻²⁷), 1.0, +0.0, and the reciprocal of the node count, 1.0 / 100000.0 = 1/100000.
-/
import Idealize.ShloMosaic.PureOps.Ideal.Laws
import Mathlib.Data.EReal.Basic
import Mathlib.Tactic.NormNum

noncomputable section

namespace Cert.Consts

open Idealize.ShloMosaic

/-- The binary32 nearest 0.1: exponent field 123, significand 2²³ + 5033165 = 13421773, so 13421773 · 2⁻²⁷. -/
theorem ofBits_tenth : Ideal.ofBits .f32 0x3DCCCCCD#32 = ((13421773 / 134217728 : ℝ) : EReal) := by
  simp [Ideal.ofBits, Ideal.ieee, -EReal.coe_mul]; norm_num

/-- 1.0 denotes 1. -/
theorem ofBits_one : Ideal.ofBits .f32 0x3F800000#32 = (1 : EReal) := by
  simp [Ideal.ofBits, Ideal.ieee, -EReal.coe_mul]; norm_num

/-- +0.0 denotes 0. -/
theorem ofBits_zero : Ideal.ofBits .f32 0x00000000#32 = (0 : EReal) := by
  simp [Ideal.ofBits, Ideal.ieee]

/-- 100000.0: exponent field 143, significand 12800000, so 12800000 · 2⁻⁷ = 100000. -/
theorem ofBits_nodes : Ideal.ofBits .f32 0x47C35000#32 = ((100000 : ℝ) : EReal) := by
  simp [Ideal.ofBits, Ideal.ieee, -EReal.coe_mul]; norm_num

/-- 1.0 / 100000.0 is the real 1/100000. -/
theorem inv_nodes : Ideal.div (Ideal.ofBits .f32 0x3F800000#32) (Ideal.ofBits .f32 0x47C35000#32)
    = ((1 / 100000 : ℝ) : EReal) := by
  rw [ofBits_one, ofBits_nodes, Ideal.div_coe (by norm_num), one_mul]

end Cert.Consts

end
-- ==== Proof.KernelValue.lean ====
/-
  The kernel program's result as a formula of the three inputs it reads. The second region's output array is the
  final combine of: the features and factors as launched; the degree counts of the edge list; and the two sums, over a
  node's edges, of the far endpoint's row of z_reg — z_reg being the first region's output, rows gathered through the
  edge list. With every index word in the node range the gathers read exactly the named rows.
-/
import proofs.«419742_j2989297238461_3_alg».proof.Proof.Region0Value
import proofs.«419742_j2989297238461_3_alg».proof.Proof.Region1Value
import proofs.«419742_j2989297238461_3_alg».proof.Proof.KernelStages
import proofs.«419742_j2989297238461_3_alg».proof.Proof.KernelTake
import proofs.«419742_j2989297238461_3_alg».proof.Proof.KernelSums
import proofs.«419742_j2989297238461_3_alg».proof.Proof.Spec
import proofs.«419742_j2989297238461_3_alg».proof.Proof.Consts

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LapSpec

variable (m : (ℓ : Loc nD τ sig) → Buf (Elt Ideal) ℓ) (ρ : Dev nD → PrngReg)

/-- The three inputs the program reads, as launched. -/
abbrev feat (c : Dev nD) : S100000x48.Idx → EReal := m ((c : Thread nD τ).loc main_arg0)
abbrev edges (c : Dev nD) : S2x1600000.Idx → BitVec 32 := m ((c : Thread nD τ).loc main_arg2)
abbrev fact (c : Dev nD) : S100000x1.Idx → EReal := m ((c : Thread nD τ).loc main_arg3)

/-! ## What the first region is entered with, and what it leaves -/

theorem V1_arg0 (c : Dev nD) : V1 m ρ c main_arg0 = feat m c := pre_arg0 (W0 m ρ c)
theorem V1_arg3 (c : Dev nD) : V1 m ρ c main_arg3 = fact m c := pre_arg3 (W0 m ρ c)

theorem W2_v1 (c : Dev nD) : W2 m ρ c (Proc.devRef .tc main_v1) = firstWords (F := Ideal) (edges m c) :=
  (W2_of_ne m ρ c main_v1 (by decide)).trans (pre_v1 (W0 m ρ c))
theorem W2_v3 (c : Dev nD) : W2 m ρ c (Proc.devRef .tc main_v3) = secondWords (F := Ideal) (edges m c) :=
  (W2_of_ne m ρ c main_v3 (by decide)).trans (pre_v3 (W0 m ρ c))
theorem W2_arg0 (c : Dev nD) : W2 m ρ c (Proc.devRef .tc main_arg0) = feat m c :=
  ((W2_arr m ρ c 0).trans (((dat0 (V1 m ρ) c).arrAt_in 0 rfl _).trans (A_eq0 (V1 m ρ) c 0))).trans (V1_arg0 m ρ c)
theorem W2_arg3 (c : Dev nD) : W2 m ρ c (Proc.devRef .tc main_arg3) = fact m c :=
  ((W2_arr m ρ c 1).trans (((dat0 (V1 m ρ) c).arrAt_in 1 rfl _).trans (A_eq0 (V1 m ρ) c 1))).trans (V1_arg3 m ρ c)

/-- z_reg: the first region's output array, the feature times its row's factor. -/
def zreg (c : Dev nD) : S100000x48.Idx → EReal := fun i => feat m c i * fact m c (ix2 (i 0) (0 : Fin 1))

theorem W2_v4 (c : Dev nD) : W2 m ρ c (Proc.devRef .tc main_v4) = zreg m c := by
  refine (W2_arr m ρ c 2).trans ((region0_final (V1 m ρ) c).trans ?_)
  unfold scaled zreg
  rw [show featArr (V1 m ρ) c = feat m c from V1_arg0 m ρ c, show factArr (V1 m ρ) c = fact m c from V1_arg3 m ρ c]

/-! ## What the second region is entered with -/

theorem V5_arg0 (c : Dev nD) : V5 m ρ c main_arg0 = feat m c :=
  (sums_arg0 (W4 m ρ c)).trans ((take2_arg0 (W3 m ρ c)).trans ((take1_arg0 (W2 m ρ c)).trans (W2_arg0 m ρ c)))
theorem V5_arg3 (c : Dev nD) : V5 m ρ c main_arg3 = fact m c :=
  (sums_arg3 (W4 m ρ c)).trans ((take2_arg3 (W3 m ρ c)).trans ((take1_arg3 (W2 m ρ c)).trans (W2_arg3 m ρ c)))

theorem W4_v1 (c : Dev nD) : W4 m ρ c (Proc.devRef .tc main_v1) = firstWords (F := Ideal) (edges m c) :=
  (take2_v1 (W3 m ρ c)).trans ((take1_v1 (W2 m ρ c)).trans (W2_v1 m ρ c))
theorem W4_v3 (c : Dev nD) : W4 m ρ c (Proc.devRef .tc main_v3) = secondWords (F := Ideal) (edges m c) :=
  (take2_v3 (W3 m ρ c)).trans ((take1_v3 (W2 m ρ c)).trans (W2_v3 m ρ c))
theorem W4_v5 (c : Dev nD) : W4 m ρ c (Proc.devRef .tc main_v5) = takeRows (F := Ideal) (zreg m c) (secondWords (F := Ideal) (edges m c)) := by
  refine (take2_v5 (W3 m ρ c)).trans ((take1_v5 (W2 m ρ c)).trans ?_)
  rw [W2_v4, W2_v3]
theorem W4_v6 (c : Dev nD) : W4 m ρ c (Proc.devRef .tc main_v6) = takeRows (F := Ideal) (zreg m c) (firstWords (F := Ideal) (edges m c)) := by
  refine (take2_v6 (W3 m ρ c)).trans ?_
  rw [show W3 m ρ c (Proc.devRef .tc main_v4) = W2 m ρ c (Proc.devRef .tc main_v4) from take1_v4 (W2 m ρ c),
    show W3 m ρ c (Proc.devRef .tc main_v1) = W2 m ρ c (Proc.devRef .tc main_v1) from take1_v1 (W2 m ρ c), W2_v4, W2_v1]

theorem V5_v15 (c : Dev nD) : V5 m ρ c main_v15 = degrees (F := Ideal) (firstWords (F := Ideal) (edges m c)) (secondWords (F := Ideal) (edges m c)) := by
  refine (sums_v15 (W4 m ρ c)).trans ?_
  rw [W4_v1, W4_v3]
theorem V5_v18 (c : Dev nD) : V5 m ρ c main_v18
    = rowSums (F := Ideal) (firstWords (F := Ideal) (edges m c)) (takeRows (F := Ideal) (zreg m c) (secondWords (F := Ideal) (edges m c))) := by
  refine (sums_v18 (W4 m ρ c)).trans ?_
  rw [W4_v1, W4_v5]
theorem V5_v21 (c : Dev nD) : V5 m ρ c main_v21
    = rowSums (F := Ideal) (secondWords (F := Ideal) (edges m c)) (takeRows (F := Ideal) (zreg m c) (firstWords (F := Ideal) (edges m c))) := by
  refine (sums_v21 (W4 m ρ c)).trans ?_
  rw [W4_v3, W4_v6]

/-! ## The result -/

/-- The named coefficient's value. -/
theorem coeff_eq : coeff = ((13421773 / 6710886400000 : ℝ) : EReal) :=
  IdealRules.named_const.ideal_named_scalar _ _ _ _ rfl

theorem zreg_apply (c : Dev nD) (k : Fin 100000) (d : Fin 48) : zreg m c (ix2 k d) = scaledR (feat m c) (fact m c) k d := rfl

/-- With every index word of the edge list in the node range, the program's result array holds the kernel's formula
    of the inputs at every entry. -/
theorem kernel_result (c : Dev nD) (hr : ∀ j, 0 ≤ (edges m c j).toInt ∧ (edges m c j).toInt < 100000) (n : Fin 100000) (d : Fin 48) :
    (W6 m ρ c (Proc.devRef .tc main_v22) : S100000x48.Idx → EReal) (ix2 n d)
      = kernelForm (feat m c) (edges m c) (fact m c) ((13421773 / 6710886400000 : ℝ) : EReal) n d := by
  have hfw : ∀ e, 0 ≤ (firstWords (F := Ideal) (edges m c) e).toInt ∧ (firstWords (F := Ideal) (edges m c) e).toInt < 100000 := fun e => by
    obtain ⟨k, rfl⟩ : ∃ k : Fin 1600000, e = ix1 k := ⟨e 0, eq_ix1 e⟩
    rw [firstWords_apply]; exact hr _
  have hsw : ∀ e, 0 ≤ (secondWords (F := Ideal) (edges m c) e).toInt ∧ (secondWords (F := Ideal) (edges m c) e).toInt < 100000 := fun e => by
    obtain ⟨k, rfl⟩ : ∃ k : Fin 1600000, e = ix1 k := ⟨e 0, eq_ix1 e⟩
    rw [secondWords_apply]; exact hr _
  have hW : W6 m ρ c (Proc.devRef .tc main_v22) = combined (V5 m ρ) c := (W6_arr m ρ c 5).trans (region1_final (V5 m ρ) c)
  rw [hW]
  unfold combined kernelForm
  rw [show zArr (V5 m ρ) c = feat m c from V5_arg0 m ρ c, show sArr (V5 m ρ) c = fact m c from V5_arg3 m ρ c,
    show degArr (V5 m ρ) c = _ from V5_v15 m ρ c, show sum1Arr (V5 m ρ) c = _ from V5_v18 m ρ c,
    show sum2Arr (V5 m ρ) c = _ from V5_v21 m ρ c]
  show feat m c (ix2 n d) - coeff * (fact m c (ix2 n (0 : Fin 1)) * (((degrees (F := Ideal) _ _ (ix2 n (0 : Fin 1)) * (fact m c (ix2 n (0 : Fin 1)) * feat m c (ix2 n d)))
    - rowSums (F := Ideal) _ _ (ix2 n d)) - rowSums (F := Ideal) _ _ (ix2 n d))) = _
  rw [degrees_apply, rowSums_apply, rowSums_apply, coeff_eq, Cert.Consts.ofBits_zero, Cert.Consts.ofBits_one]
  simp only [firstWords_apply, secondWords_apply, takeRows_apply (zreg m c) _ hfw, takeRows_apply (zreg m c) _ hsw, zreg_apply]
  rfl

end Cert.KernelIdeal.Hand

end
-- ==== Proof.RefValue.lean ====
/-
  The reference program's result, entry by entry, as the formula `Cert.LapSpec.refForm` of the inputs, for an edge list
  whose every word names a node (0 ≤ word < 100000).

  With every word in range: the program's wrap of a negative index, select(word < 0, word + 100000, word), is the word
  itself; its in-range mask, the `and` over a size-one axis of (word ≥ 0) and (word ≤ 99999), is 1 at every edge, so the
  edge weight is what a gather reads out of a constant vector, 1 / 100000 whatever it reads; the two row gathers of
  z_reg = nf · z read the rows the edge's two words name; the two accumulating row scatters from the zero array sum, at
  node n, the updates of the edges whose second (resp. first) word is n; and the last four operations are
  z − 0.1 · (nf · (the two scatters' sum)).
-/
import proofs.«419742_j2989297238461_3_alg».proof.Proof.Gen.ReferenceIdeal.Run
import proofs.«419742_j2989297238461_3_alg».proof.Proof.Gen.ReferenceIdeal.Read
import proofs.«419742_j2989297238461_3_alg».proof.Proof.Spec
import proofs.«419742_j2989297238461_3_alg».proof.Proof.LibRowGather
import proofs.«419742_j2989297238461_3_alg».proof.Proof.LibRowScatter
import proofs.«419742_j2989297238461_3_alg».proof.Proof.LibAndAll
import Idealize.ShloMosaic.Lib.ValueIdx
import Idealize.ShloMosaic.Lib.Pipeline.Value
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The edge weight as the program computes it: 1 divided by 100000. -/
local notation "wt" => Ideal.div (Ideal.ofBits FTy.f32 0x3F800000#32) (Ideal.ofBits FTy.f32 0x47C35000#32)

section
variable (z : (⟨S100000x48, .f32⟩ : BufTy).Contents (Elt Ideal)) (ei : (⟨S2x1600000, .i32⟩ : BufTy).Contents (Elt Ideal)) (nf : (⟨S100000x1, .f32⟩ : BufTy).Contents (Elt Ideal))

/-! ## The index words -/

/-- The first endpoints as a flat array: entry `e` is the edge list's word at (0, e). -/
theorem v1_at (i : S1600000.Idx) : val_main_v1 (F := Ideal) ei i = ei (ix2 (0 : Fin 2) (i 0)) := by
  rw [val_main_v1_apply, val_main_v0_apply]
  congr 1
  funext a
  refine Fin.ext ?_
  match a with
  | ⟨0, _⟩ => rfl
  | ⟨1, _⟩ =>
    show ((i 0).val) % 1600000 = (i 0).val
    exact Nat.mod_eq_of_lt (i 0).isLt

/-- The second endpoints as a flat array: entry `e` is the edge list's word at (1, e). -/
theorem v3_at (i : S1600000.Idx) : val_main_v3 (F := Ideal) ei i = ei (ix2 (1 : Fin 2) (i 0)) := by
  rw [val_main_v3_apply, val_main_v2_apply]
  congr 1
  funext a
  refine Fin.ext ?_
  match a with
  | ⟨0, _⟩ => rfl
  | ⟨1, _⟩ =>
    show ((i 0).val) % 1600000 = (i 0).val
    exact Nat.mod_eq_of_lt (i 0).isLt

/-- A word that is not negative is not below 0, so the comparison's bit is 0. -/
theorem slt_zero_of_nonneg (w : BitVec 32) (h : 0 ≤ w.toInt) : IntOp.cmpi .slt w 0#32 = 0#1 := by
  refine eq_zero_of_ne_one fun h1 => ?_
  have h2 := IntOp.cmpi_slt.1 h1
  have h0 : (0#32 : BitVec 32).toInt = 0 := by decide
  omega

/-- The wrapped first endpoint of edge `e` is the word itself: it is not negative. -/
theorem v10_at (hr : ∀ j, 0 ≤ (ei j).toInt ∧ (ei j).toInt < 100000) (i : S1600000.Idx) :
    val_main_v10 (F := Ideal) ei i = ei (ix2 (0 : Fin 2) (i 0)) := by
  rw [val_main_v10_apply, val_main_v7_apply, val_main_v6_apply, val_main_c_apply, v1_at,
    slt_zero_of_nonneg _ (hr _).1, select_zero]

/-- The wrapped second endpoint of edge `e` is the word itself: it is not negative. -/
theorem v17_at (hr : ∀ j, 0 ≤ (ei j).toInt ∧ (ei j).toInt < 100000) (i : S1600000.Idx) :
    val_main_v17 (F := Ideal) ei i = ei (ix2 (1 : Fin 2) (i 0)) := by
  rw [val_main_v17_apply, val_main_v14_apply, val_main_v13_apply, val_main_c_1_apply, v3_at,
    slt_zero_of_nonneg _ (hr _).1, select_zero]

/-- The index column the first gather and the second scatter read: row `e` holds the edge list's word at (0, e). -/
theorem first_word (hr : ∀ j, 0 ≤ (ei j).toInt ∧ (ei j).toInt < 100000) (e : Fin 1600000) :
    val_main_v11 (F := Ideal) ei (ix2 e (0 : Fin 1)) = ei (ix2 (0 : Fin 2) e) := by
  rw [val_main_v11_apply, v10_at ei hr]
  rfl

/-- The index column the second gather and the first scatter read: row `e` holds the edge list's word at (1, e). -/
theorem second_word (hr : ∀ j, 0 ≤ (ei j).toInt ∧ (ei j).toInt < 100000) (e : Fin 1600000) :
    val_main_v18 (F := Ideal) ei (ix2 e (0 : Fin 1)) = ei (ix2 (1 : Fin 2) e) := by
  rw [val_main_v18_apply, v17_at ei hr]
  rfl

/-- The unwrapped second endpoints as a column: row `i 0` holds the edge list's word at (1, i 0). -/
theorem raw_second_word (i : S1600000x1.Idx) : val_main_v24 (F := Ideal) ei i = ei (ix2 (1 : Fin 2) (i 0)) := by
  rw [val_main_v24_apply, v3_at]
  rfl

/-! ## z_reg and its two row gathers -/

/-- z_reg at (m, d) is the node factor of m times z at (m, d). -/
theorem zreg_apply (m : Fin 100000) (d : Fin 48) :
    val_main_v5 (F := Ideal) z nf (ix2 m d) = Cert.LapSpec.scaledL z nf m d := by
  have hi : idx_main_v4 (ix2 m d) = ix2 m (0 : Fin 1) := by
    funext a
    match a with
    | ⟨0, _⟩ => rfl
    | ⟨1, _⟩ => rfl
  rw [val_main_v5_apply, val_main_v4_apply, hi]
  rfl

/-- The program's gather record is the row gather's dimension numbers. -/
theorem rowGather_eq : gather_S100000x48_S1600000x1_S1600000x48_1_0_n_n_0_1_148
    = Cert.LibRowGather.rowDims 100000 48 1600000 gather_S100000x48_S1600000x1_S1600000x48_1_0_n_n_0_1_148_wf := rfl

/-- A row gather of z_reg at (e, d): z_reg at the node the index word of row `e` names. -/
theorem gathered (idx : (⟨S1600000x1, .i32⟩ : BufTy).Contents (Elt Ideal)) (e : Fin 1600000) (d : Fin 48) :
    Host.gather gather_S100000x48_S1600000x1_S1600000x48_1_0_n_n_0_1_148 (val_main_v5 (F := Ideal) z nf) idx (ix2 e d)
      = Cert.LapSpec.scaledL z nf (Cert.LapSpec.node (idx (ix2 e (0 : Fin 1)))) d := by
  rw [rowGather_eq, Cert.LibRowGather.gather_row_apply (by decide : 0 < 100000)]
  exact zreg_apply z nf (Cert.LapSpec.node (idx (ix2 e (0 : Fin 1)))) d

/-- The first gather at (e, d): z_reg at edge `e`'s first endpoint. -/
theorem v12_at (hr : ∀ j, 0 ≤ (ei j).toInt ∧ (ei j).toInt < 100000) (e : Fin 1600000) (d : Fin 48) :
    val_main_v12 (F := Ideal) z ei nf (ix2 e d)
      = Cert.LapSpec.scaledL z nf (Cert.LapSpec.node (ei (ix2 (0 : Fin 2) e))) d := by
  unfold val_main_v12
  rw [gathered, first_word ei hr]

/-- The second gather at (e, d): z_reg at edge `e`'s second endpoint. -/
theorem v19_at (hr : ∀ j, 0 ≤ (ei j).toInt ∧ (ei j).toInt < 100000) (e : Fin 1600000) (d : Fin 48) :
    val_main_v19 (F := Ideal) z ei nf (ix2 e d)
      = Cert.LapSpec.scaledL z nf (Cert.LapSpec.node (ei (ix2 (1 : Fin 2) e))) d := by
  unfold val_main_v19
  rw [gathered, second_word ei hr]

/-! ## The edge weight -/

/-- The in-range mask is 1 at every edge: every second endpoint is at least 0 and at most 99999. -/
theorem mask_one (hr : ∀ j, 0 ≤ (ei j).toInt ∧ (ei j).toInt < 100000) (i : S1600000.Idx) : val_main_v37 (F := Ideal) ei i = 1#1 := by
  unfold val_main_v37
  refine Cert.LibAndAll.reduce_andi_of_all _ _ _ _ (fun k => ?_) (fun _ => rfl) i
  rw [val_main_v36_apply, val_main_v32_apply, val_main_v35_apply, val_main_v31_apply, val_main_c_10_apply,
    val_main_v34_apply, val_main_v33_apply, val_main_c_9_apply, raw_second_word]
  have h := hr (ix2 (1 : Fin 2) (k 0))
  have h0 : (0#32 : BitVec 32).toInt = 0 := by decide
  have h9 : (99999#32 : BitVec 32).toInt = 99999 := by decide
  exact IntOp.andi_eq_one.2 ⟨IntOp.cmpi_sge.2 (by omega), IntOp.cmpi_sle.2 (by omega)⟩

/-- A gather out of the constant vector of 1 / 100000 is 1 / 100000, whatever it reads. -/
theorem v38_at (i : S1600000.Idx) : val_main_v38 (F := Ideal) ei i = wt := by
  unfold val_main_v38 Host.gather
  rw [val_main_v30_apply]
  rfl

/-- The edge weight at (e, d) is 1 / 100000. -/
theorem weight (hr : ∀ j, 0 ≤ (ei j).toInt ∧ (ei j).toInt < 100000) (e : Fin 1600000) (d : Fin 48) :
    val_main_v41 (F := Ideal) ei (ix2 e d) = wt := by
  rw [val_main_v41_apply, val_main_v40_apply, mask_one ei hr, select_one, v38_at]

/-! ## What an edge sends, and the two scatters -/

/-- What edge `e` sends to its first endpoint in column `d`. -/
theorem edge (hr : ∀ j, 0 ≤ (ei j).toInt ∧ (ei j).toInt < 100000) (e : Fin 1600000) (d : Fin 48) :
    val_main_v44 (F := Ideal) z ei nf (ix2 e d) = Cert.LapSpec.edgeTerm z ei nf wt e d := by
  rw [val_main_v44_apply, val_main_v42_apply, val_main_v43_apply, val_main_v20_apply, weight ei hr,
    v12_at z ei nf hr, v19_at z ei nf hr]
  rfl

/-- The program's scatter record is the row scatter's dimension numbers. -/
theorem rowScatter_eq : scatter_S100000x48_S1600000x1_S1600000x48_1_0_0_1
    = Cert.LibRowScatter.rowDims 100000 48 1600000 scatter_S100000x48_S1600000x1_S1600000x48_1_0_0_1_wf := rfl

/-- An accumulating row scatter into an array that is 0 at (n, d): the sum of the updates at (e, d) over the rows `e`
    whose index word reads `n`. -/
theorem scattered (x : (⟨S100000x48, .f32⟩ : BufTy).Contents (Elt Ideal)) (idx : (⟨S1600000x1, .i32⟩ : BufTy).Contents (Elt Ideal))
    (upd : (⟨S1600000x48, .f32⟩ : BufTy).Contents (Elt Ideal)) (n : Fin 100000) (d : Fin 48) (hx : x (ix2 n d) = 0) :
    Host.scatterAdd (F := Ideal) (φ := .f32) scatter_S100000x48_S1600000x1_S1600000x48_1_0_0_1 x idx upd (ix2 n d)
      = 0 + ∑ e ∈ Finset.univ.filter (fun e : Fin 1600000 => (idx (ix2 e (0 : Fin 1))).toInt = (n.val : Int)),
          upd (ix2 e d) := by
  unfold Host.scatterAdd
  rw [Ideal.hostScatterAdd_def, rowScatter_eq, Cert.LibRowScatter.scatterAdd_row_apply, hx]

/-- The first zero array. -/
theorem v46_at (i : S100000x48.Idx) : val_main_v46 (F := Ideal) i = 0 := by
  rw [val_main_v46_apply, val_main_cst_13_apply, Ideal.ofBits_def, Ideal.ofBits_zero_f32]

/-- The second zero array. -/
theorem v48_at (i : S100000x48.Idx) : val_main_v48 (F := Ideal) i = 0 := by
  rw [val_main_v48_apply, val_main_cst_14_apply, Ideal.ofBits_def, Ideal.ofBits_zero_f32]

/-- The scatter onto second endpoints at (n, d): minus what each edge with second endpoint `n` sends. -/
theorem v47_at (hr : ∀ j, 0 ≤ (ei j).toInt ∧ (ei j).toInt < 100000) (n : Fin 100000) (d : Fin 48) :
    val_main_v47 (F := Ideal) z ei nf (ix2 n d)
      = 0 + ∑ e ∈ Cert.LapSpec.secondAt ei n, -(Cert.LapSpec.edgeTerm z ei nf wt e d) := by
  unfold val_main_v47
  rw [scattered _ _ _ n d (v46_at _)]
  unfold Cert.LapSpec.secondAt
  refine congrArg (0 + ·) ?_
  refine Finset.sum_congr (Finset.filter_congr fun e _ => by rw [second_word ei hr]) fun e _ => ?_
  rw [val_main_v45_apply, Ideal.hostNegf_def, Ideal.negf_def, edge z ei nf hr]

/-- The scatter onto first endpoints at (n, d): what each edge with first endpoint `n` sends. -/
theorem v49_at (hr : ∀ j, 0 ≤ (ei j).toInt ∧ (ei j).toInt < 100000) (n : Fin 100000) (d : Fin 48) :
    val_main_v49 (F := Ideal) z ei nf (ix2 n d)
      = 0 + ∑ e ∈ Cert.LapSpec.firstAt ei n, Cert.LapSpec.edgeTerm z ei nf wt e d := by
  unfold val_main_v49
  rw [scattered _ _ _ n d (v48_at _)]
  unfold Cert.LapSpec.firstAt
  refine congrArg (0 + ·) ?_
  refine Finset.sum_congr (Finset.filter_congr fun e _ => by rw [first_word ei hr]) fun e _ => ?_
  rw [edge z ei nf hr]

end

/-! ## The result -/

/-- THE REFERENCE'S RESULT AT (n, d), for an edge list whose every word names a node: the formula `refForm` with the
    step 0.1 and the edge weight 1 / 100000. -/
theorem result_eq (z : (⟨S100000x48, .f32⟩ : BufTy).Contents (Elt Ideal)) (ei : (⟨S2x1600000, .i32⟩ : BufTy).Contents (Elt Ideal)) (nf : (⟨S100000x1, .f32⟩ : BufTy).Contents (Elt Ideal))
    (hr : ∀ j, 0 ≤ (ei j).toInt ∧ (ei j).toInt < 100000) (n : Fin 100000) (d : Fin 48) :
    Cert.ReferenceIdeal.Read.val_main_v55 (F := Ideal) z ei nf (ix2 n d)
      = Cert.LapSpec.refForm z ei nf (Ideal.ofBits .f32 0x3DCCCCCD#32) (Ideal.div (Ideal.ofBits .f32 0x3F800000#32) (Ideal.ofBits .f32 0x47C35000#32)) n d := by
  have hi : idx_main_v51 (ix2 n d) = ix2 n (0 : Fin 1) := by
    funext a
    match a with
    | ⟨0, _⟩ => rfl
    | ⟨1, _⟩ => rfl
  rw [val_main_v55_apply, val_main_v54_apply, val_main_v53_apply, val_main_cst_15_apply, val_main_v52_apply,
    val_main_v51_apply, hi, val_main_v50_apply, v47_at z ei nf hr, v49_at z ei nf hr]
  rfl

end Cert.ReferenceIdeal.RefValue

end
-- ==== Proof.Algebra.lean ====
/-
  The reference's and the kernel's closed forms agree on real inputs.

  Write R(m) = nf[m] · z[m, d]. An edge e whose first endpoint is n sends 2w · (R(n) − R(second e)) to n, and an edge whose
  second endpoint is n sends −2w · (R(first e) − R(n)). Summing over both edge sets, the node n receives
  2w · ((#first + #second) · R(n) − Σ_first R(second e) − Σ_second R(first e)), which is the kernel's bracket times 2w.
  Every term is the image of a real number, so the identity is checked in ℝ and carried back along the coercion.
-/
import proofs.«419742_j2989297238461_3_alg».proof.Proof.Spec
import Mathlib.Data.EReal.Basic
import Mathlib.Data.EReal.Operations
import Mathlib.Algebra.BigOperators.Ring.Finset
import Mathlib.Algebra.BigOperators.Group.Finset.Basic
import Mathlib.Tactic.Ring

noncomputable section

open scoped BigOperators

namespace Cert.LapSpec

open Idealize.ShloMosaic Idealize.ShloMosaic.ValueIdx

/-- A word whose signed value is the node number `n` clamps to `n`. -/
theorem node_eq_of_toInt (w : BitVec 32) (n : Fin 100000) (h : w.toInt = (n.val : Int)) : node w = n := by
  apply Fin.ext
  show min w.toInt.toNat (100000 - 1) = n.val
  rw [h, Int.toNat_natCast]
  have := n.isLt
  omega

/-- The coercion ℝ → EReal commutes with finite sums. -/
theorem coe_finsum {ι : Type*} (S : Finset ι) (f : ι → ℝ) :
    ∑ e ∈ S, ((f e : ℝ) : EReal) = ((∑ e ∈ S, f e : ℝ) : EReal) := by
  classical
  induction S using Finset.induction_on with
  | empty => simp
  | insert a s ha ih => rw [Finset.sum_insert ha, Finset.sum_insert ha, ih, EReal.coe_add]

/-- The identity in ℝ, over arbitrary edge sets `A` (first endpoint is the node) and `B` (second endpoint is the node):
    `s₁, t₁` are z and nf at an edge's first endpoint, `s₂, t₂` at its second; `Z, N` are z and nf at the node. -/
theorem real_forms_agree {ι : Type*} (A B : Finset ι) (Z N a w : ℝ) (s₁ t₁ s₂ t₂ : ι → ℝ) :
    Z - a * (N * ((0 + ∑ e ∈ B, -((t₁ e * s₁ e - N * Z) * w + w * (t₁ e * s₁ e - N * Z)))
        + (0 + ∑ e ∈ A, ((N * Z - t₂ e * s₂ e) * w + w * (N * Z - t₂ e * s₂ e)))))
      = Z - (a * 2 * w) * (N * ((((0 + ∑ _e ∈ A, (1 : ℝ)) + (0 + ∑ _e ∈ B, (1 : ℝ))) * (N * Z)
          - (0 + ∑ e ∈ A, s₂ e * t₂ e)) - (0 + ∑ e ∈ B, s₁ e * t₁ e))) := by
  have hB : ∑ e ∈ B, -((t₁ e * s₁ e - N * Z) * w + w * (t₁ e * s₁ e - N * Z))
      = 2 * w * ((∑ _e ∈ B, (1 : ℝ)) * (N * Z) - ∑ e ∈ B, s₁ e * t₁ e) := by
    rw [Finset.sum_mul, ← Finset.sum_sub_distrib, Finset.mul_sum]
    exact Finset.sum_congr rfl fun e _ => by ring
  have hA : ∑ e ∈ A, ((N * Z - t₂ e * s₂ e) * w + w * (N * Z - t₂ e * s₂ e))
      = 2 * w * ((∑ _e ∈ A, (1 : ℝ)) * (N * Z) - ∑ e ∈ A, s₂ e * t₂ e) := by
    rw [Finset.sum_mul, ← Finset.sum_sub_distrib, Finset.mul_sum]
    exact Finset.sum_congr rfl fun e _ => by ring
  rw [hA, hB]
  ring

section
variable (zR : (⟨2, ![100000, 48]⟩ : Shape).Idx → ℝ) (ei : IVec ⟨2, ![2, 1600000]⟩ 32)
  (nR : (⟨2, ![100000, 1]⟩ : Shape).Idx → ℝ)

/-- An edge term on real inputs is the image of the same expression in ℝ. -/
theorem edgeTerm_coe (w : ℝ) (e : Fin 1600000) (d : Fin 48) :
    edgeTerm (fun i => ((zR i : ℝ) : EReal)) ei (fun i => ((nR i : ℝ) : EReal)) (w : EReal) e d
      = (((nR (ix2 (node (ei (ix2 (0 : Fin 2) e))) (0 : Fin 1)) * zR (ix2 (node (ei (ix2 (0 : Fin 2) e))) d)
            - nR (ix2 (node (ei (ix2 (1 : Fin 2) e))) (0 : Fin 1)) * zR (ix2 (node (ei (ix2 (1 : Fin 2) e))) d)) * w
          + w * (nR (ix2 (node (ei (ix2 (0 : Fin 2) e))) (0 : Fin 1)) * zR (ix2 (node (ei (ix2 (0 : Fin 2) e))) d)
            - nR (ix2 (node (ei (ix2 (1 : Fin 2) e))) (0 : Fin 1)) * zR (ix2 (node (ei (ix2 (1 : Fin 2) e))) d)) : ℝ) : EReal) := by
  unfold edgeTerm scaledL
  simp only [EReal.coe_add, EReal.coe_mul, EReal.coe_sub]

end

section
variable (zR : (⟨2, ![100000, 48]⟩ : Shape).Idx → ℝ) (ei : IVec ⟨2, ![2, 1600000]⟩ 32)
  (nR : (⟨2, ![100000, 1]⟩ : Shape).Idx → ℝ)

/-- The reference's form on real inputs, as the image of a real expression in which the node's own endpoint has been
    identified with `n` in every edge term. -/
theorem refForm_coe (a w : ℝ) (n : Fin 100000) (d : Fin 48) :
    refForm (fun i => ((zR i : ℝ) : EReal)) ei (fun i => ((nR i : ℝ) : EReal)) (a : EReal) (w : EReal) n d
      = ((zR (ix2 n d) - a * (nR (ix2 n (0 : Fin 1)) *
          ((0 + ∑ e ∈ secondAt ei n,
              -((nR (ix2 (node (ei (ix2 (0 : Fin 2) e))) (0 : Fin 1)) * zR (ix2 (node (ei (ix2 (0 : Fin 2) e))) d)
                    - nR (ix2 n (0 : Fin 1)) * zR (ix2 n d)) * w
                + w * (nR (ix2 (node (ei (ix2 (0 : Fin 2) e))) (0 : Fin 1)) * zR (ix2 (node (ei (ix2 (0 : Fin 2) e))) d)
                    - nR (ix2 n (0 : Fin 1)) * zR (ix2 n d))))
            + (0 + ∑ e ∈ firstAt ei n,
              ((nR (ix2 n (0 : Fin 1)) * zR (ix2 n d)
                    - nR (ix2 (node (ei (ix2 (1 : Fin 2) e))) (0 : Fin 1)) * zR (ix2 (node (ei (ix2 (1 : Fin 2) e))) d)) * w
                + w * (nR (ix2 n (0 : Fin 1)) * zR (ix2 n d)
                    - nR (ix2 (node (ei (ix2 (1 : Fin 2) e))) (0 : Fin 1)) * zR (ix2 (node (ei (ix2 (1 : Fin 2) e))) d)))))) : ℝ)
          : EReal) := by
  have h1 : ∀ e ∈ firstAt ei n, node (ei (ix2 (0 : Fin 2) e)) = n :=
    fun e he => node_eq_of_toInt _ _ (Finset.mem_filter.mp he).2
  have h2 : ∀ e ∈ secondAt ei n, node (ei (ix2 (1 : Fin 2) e)) = n :=
    fun e he => node_eq_of_toInt _ _ (Finset.mem_filter.mp he).2
  have sB : ∑ e ∈ secondAt ei n,
        -(edgeTerm (fun i => ((zR i : ℝ) : EReal)) ei (fun i => ((nR i : ℝ) : EReal)) (w : EReal) e d)
      = ((∑ e ∈ secondAt ei n,
              -((nR (ix2 (node (ei (ix2 (0 : Fin 2) e))) (0 : Fin 1)) * zR (ix2 (node (ei (ix2 (0 : Fin 2) e))) d)
                    - nR (ix2 n (0 : Fin 1)) * zR (ix2 n d)) * w
                + w * (nR (ix2 (node (ei (ix2 (0 : Fin 2) e))) (0 : Fin 1)) * zR (ix2 (node (ei (ix2 (0 : Fin 2) e))) d)
                    - nR (ix2 n (0 : Fin 1)) * zR (ix2 n d))) : ℝ) : EReal) := by
    rw [← coe_finsum]
    refine Finset.sum_congr rfl fun e he => ?_
    rw [edgeTerm_coe, h2 e he, EReal.coe_neg]
  have sA : ∑ e ∈ firstAt ei n,
        edgeTerm (fun i => ((zR i : ℝ) : EReal)) ei (fun i => ((nR i : ℝ) : EReal)) (w : EReal) e d
      = ((∑ e ∈ firstAt ei n,
              ((nR (ix2 n (0 : Fin 1)) * zR (ix2 n d)
                    - nR (ix2 (node (ei (ix2 (1 : Fin 2) e))) (0 : Fin 1)) * zR (ix2 (node (ei (ix2 (1 : Fin 2) e))) d)) * w
                + w * (nR (ix2 n (0 : Fin 1)) * zR (ix2 n d)
                    - nR (ix2 (node (ei (ix2 (1 : Fin 2) e))) (0 : Fin 1)) * zR (ix2 (node (ei (ix2 (1 : Fin 2) e))) d))) : ℝ)
          : EReal) := by
    rw [← coe_finsum]
    refine Finset.sum_congr rfl fun e he => ?_
    rw [edgeTerm_coe, h1 e he]
  unfold refForm
  rw [sB, sA]
  simp only [EReal.coe_add, EReal.coe_mul, EReal.coe_sub, EReal.coe_zero]

/-- The kernel's form on real inputs, as the image of a real expression. -/
theorem kernelForm_coe (c : ℝ) (n : Fin 100000) (d : Fin 48) :
    kernelForm (fun i => ((zR i : ℝ) : EReal)) ei (fun i => ((nR i : ℝ) : EReal)) (c : EReal) n d
      = ((zR (ix2 n d) - c * (nR (ix2 n (0 : Fin 1)) *
          ((((0 + ∑ _e ∈ firstAt ei n, (1 : ℝ)) + (0 + ∑ _e ∈ secondAt ei n, (1 : ℝ)))
                * (nR (ix2 n (0 : Fin 1)) * zR (ix2 n d))
              - (0 + ∑ e ∈ firstAt ei n,
                  zR (ix2 (node (ei (ix2 (1 : Fin 2) e))) d) * nR (ix2 (node (ei (ix2 (1 : Fin 2) e))) (0 : Fin 1))))
            - (0 + ∑ e ∈ secondAt ei n,
                  zR (ix2 (node (ei (ix2 (0 : Fin 2) e))) d) * nR (ix2 (node (ei (ix2 (0 : Fin 2) e))) (0 : Fin 1))))) : ℝ)
          : EReal) := by
  have cA : ∑ _e ∈ firstAt ei n, (1 : EReal) = ((∑ _e ∈ firstAt ei n, (1 : ℝ) : ℝ) : EReal) :=
    coe_finsum (firstAt ei n) fun _ => 1
  have cB : ∑ _e ∈ secondAt ei n, (1 : EReal) = ((∑ _e ∈ secondAt ei n, (1 : ℝ) : ℝ) : EReal) :=
    coe_finsum (secondAt ei n) fun _ => 1
  have kA : ∑ e ∈ firstAt ei n,
        scaledR (fun i => ((zR i : ℝ) : EReal)) (fun i => ((nR i : ℝ) : EReal)) (node (ei (ix2 (1 : Fin 2) e))) d
      = ((∑ e ∈ firstAt ei n,
            zR (ix2 (node (ei (ix2 (1 : Fin 2) e))) d) * nR (ix2 (node (ei (ix2 (1 : Fin 2) e))) (0 : Fin 1)) : ℝ) : EReal) := by
    rw [← coe_finsum]
    refine Finset.sum_congr rfl fun e _ => ?_
    unfold scaledR
    rw [EReal.coe_mul]
  have kB : ∑ e ∈ secondAt ei n,
        scaledR (fun i => ((zR i : ℝ) : EReal)) (fun i => ((nR i : ℝ) : EReal)) (node (ei (ix2 (0 : Fin 2) e))) d
      = ((∑ e ∈ secondAt ei n,
            zR (ix2 (node (ei (ix2 (0 : Fin 2) e))) d) * nR (ix2 (node (ei (ix2 (0 : Fin 2) e))) (0 : Fin 1)) : ℝ) : EReal) := by
    rw [← coe_finsum]
    refine Finset.sum_congr rfl fun e _ => ?_
    unfold scaledR
    rw [EReal.coe_mul]
  unfold kernelForm
  rw [cA, cB, kA, kB]
  simp only [EReal.coe_add, EReal.coe_mul, EReal.coe_sub, EReal.coe_zero]

end

/-- The reference's and the kernel's forms agree on real inputs when `c = a · 2 · w`. -/
theorem forms_agree (z : (⟨2, ![100000, 48]⟩ : Shape).Idx → EReal) (ei : IVec ⟨2, ![2, 1600000]⟩ 32)
    (nf : (⟨2, ![100000, 1]⟩ : Shape).Idx → EReal)
    (hz : ∀ i, ∃ r : ℝ, z i = (r : EReal)) (hnf : ∀ i, ∃ r : ℝ, nf i = (r : EReal))
    (a w c : ℝ) (hc : c = a * 2 * w) (n : Fin 100000) (d : Fin 48) :
    refForm z ei nf (a : EReal) (w : EReal) n d = kernelForm z ei nf (c : EReal) n d := by
  subst hc
  choose zR hzR using hz
  choose nR hnR using hnf
  obtain rfl : z = fun i => ((zR i : ℝ) : EReal) := funext hzR
  obtain rfl : nf = fun i => ((nR i : ℝ) : EReal) := funext hnR
  rw [refForm_coe, kernelForm_coe]
  exact congrArg _ (real_forms_agree (firstAt ei n) (secondAt ei n) (zR (ix2 n d)) (nR (ix2 n (0 : Fin 1))) a w
    (fun e => zR (ix2 (node (ei (ix2 (0 : Fin 2) e))) d)) (fun e => nR (ix2 (node (ei (ix2 (0 : Fin 2) e))) (0 : Fin 1)))
    (fun e => zR (ix2 (node (ei (ix2 (1 : Fin 2) e))) d)) (fun e => nR (ix2 (node (ei (ix2 (1 : Fin 2) e))) (0 : Fin 1))))

end Cert.LapSpec

end
-- ==== Proof.PreDecode.lean ====
/-
  The precondition `finite_inputs` read back. Its printed form is the conjunction of four `jnp.all`s: |z| < +∞, |x| < +∞
  and |norm_factor| < +∞ elementwise, and 0 ≤ edge_index < 100000 elementwise (signed). An extended real whose absolute
  value max(v, −v) lies below +∞ is neither infinity, so it is a real number; a signed comparison word that is 1 orders its
  operands' signed values. Hence: z and norm_factor are real everywhere, and every edge word is a node number.
-/
import proofs.«419742_j2989297238461_3_alg».proof.Pre_finite_inputs
import proofs.«419742_j2989297238461_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws
import Mathlib.Data.EReal.Basic
import Mathlib.Data.EReal.Operations

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- An elementwise `and` read at an index. -/
theorem andi_at {s : Shape} {w : Nat} (a b : IVec s w) (i : s.Idx) : andi a b i = IntOp.andi (a i) (b i) := rfl

/-- A signed comparison of arrays read at an index. -/
theorem cmpi_at {s : Shape} {w : Nat} (p : CmpIPredicate) (a b : IVec s w) (i : s.Idx) :
    cmpi p a b i = IntOp.cmpi p (a i) (b i) := rfl

/-- A scalar float constant broadcast to any shape reads, everywhere, the value its bit pattern denotes. -/
theorem bcast_constF {t : Shape} (hb : S_.BroadcastsInDim t (![] : Fin 0 → Fin t.rank)) (b : BitVec FTy.f32.bits) (j : t.Idx) :
    broadcastInDim t ![] hb (constant (F := Ideal) S_ .f32 b) j = Ideal.ofBits .f32 b := by
  rw [StableHlo.Predicate.bcast_scalar hb (by decide)]
  rfl

/-- A scalar integer constant broadcast to any shape reads the constant everywhere. -/
theorem bcast_constI {t : Shape} {w : Nat} (hb : S_.BroadcastsInDim t (![] : Fin 0 → Fin t.rank)) (b : BitVec w) (j : t.Idx) :
    broadcastInDim t ![] hb (constantI S_ w b) j = b := by
  rw [StableHlo.Predicate.bcast_scalar hb (by decide)]
  rfl

/-- The pattern 0x7F800000 denotes +∞. -/
theorem inf_bits : Ideal.ofBits .f32 0x7F800000#32 = ⊤ := by simp [Ideal.ofBits, Ideal.ieee]

/-- An extended real whose absolute value is below +∞ is a real number. -/
theorem real_of_abs_lt_inf (v : EReal) (h : Ideal.cmp .olt (max v (-v)) (Ideal.ofBits .f32 0x7F800000#32) = 1#1) :
    ∃ r : ℝ, v = (r : EReal) := by
  rw [inf_bits] at h
  have hlt : max v (-v) < ⊤ := by
    simpa only [Ideal.cmp, StableHlo.Predicate.ofBool_eq_one_iff, decide_eq_true_eq] using h
  induction v using EReal.rec with
  | bot => exact absurd hlt (by simp)
  | coe r => exact ⟨r, rfl⟩
  | top => exact absurd hlt (by simp)

/-- `jnp.all(|v| < +∞)` over an array of extended reals says every element is real. -/
theorem all_real {s : Shape} {axes : List (Fin s.rank)} (hb : S_.BroadcastsInDim s (![] : Fin 0 → Fin s.rank))
    (hr : s.ReducesTo axes S_) (hu : 0 < S_.numel) (v : FVec Ideal s .f32)
    (h : Host.reduce IntOp.andi (cmpf .olt (Host.absf v) (broadcastInDim s ![] hb (constant S_ .f32 0x7F800000#32)))
        (constantI S_ 1 1#1) hr hu ix0 = 1#1) (i : s.Idx) : ∃ r : ℝ, v i = (r : EReal) := by
  have e := Host.reduce_andi_all _ _ hr hu ix0 h i
  rw [cmpf_apply, bcast_constF] at e
  exact real_of_abs_lt_inf (v i) e

/-- `jnp.all((w ≥ 0) & (w < 100000))` over an array of 32-bit words says every word, read signed, is in [0, 100000). -/
theorem all_in_range {s : Shape} {axes : List (Fin s.rank)} (hb : S_.BroadcastsInDim s (![] : Fin 0 → Fin s.rank))
    (hr : s.ReducesTo axes S_) (hu : 0 < S_.numel) (v : IVec s 32)
    (h : Host.reduce IntOp.andi
        (andi (cmpi .sge v (broadcastInDim s ![] hb (constantI S_ 32 0#32)))
          (cmpi .slt v (broadcastInDim s ![] hb (constantI S_ 32 100000#32))))
        (constantI S_ 1 1#1) hr hu ix0 = 1#1) (j : s.Idx) : 0 ≤ (v j).toInt ∧ (v j).toInt < 100000 := by
  have e := Host.reduce_andi_all _ _ hr hu ix0 h j
  rw [andi_at, IntOp.andi_eq_one, cmpi_at, cmpi_at, bcast_constI, bcast_constI, IntOp.cmpi_sge, IntOp.cmpi_slt] at e
  have h0 : (0#32 : BitVec 32).toInt = 0 := by decide
  have h1 : (100000#32 : BitVec 32).toInt = 100000 := by decide
  rw [h0, h1] at e
  exact e

/-- The precondition decoded: z and norm_factor are real at every index, and every edge word is a node number. -/
theorem of_pre [Cert.Pre_finite_inputs.Facts] (z x : FVec Ideal Cert.Pre_finite_inputs.S100000x48 .f32)
    (ei : IVec Cert.Pre_finite_inputs.S2x1600000 32) (nf : FVec Ideal Cert.Pre_finite_inputs.S100000x1 .f32)
    (h : Cert.Pre_finite_inputs.fn (F := Ideal) z x ei nf = fun _ => 1#1) :
    (∀ i, ∃ r : ℝ, z i = (r : EReal)) ∧ (∀ i, ∃ r : ℝ, nf i = (r : EReal))
      ∧ (∀ j, 0 ≤ (ei j).toInt ∧ (ei j).toInt < 100000) := by
  have e := congrFun h ix0
  dsimp only [fn, fn_part1] at e
  rw [andi_at, andi_at, andi_at, IntOp.andi_eq_one, IntOp.andi_eq_one, IntOp.andi_eq_one] at e
  obtain ⟨⟨⟨hz, -⟩, hn⟩, he⟩ := e
  exact ⟨all_real _ _ _ z hz, all_real _ _ _ nf hn, all_in_range _ _ _ ei he⟩

end Cert.PreDecode

end
-- ==== Proof.lean ====
/-
  The certificate of the graph Laplacian-regularizer step: out = z − coeff · ∂/∂z [ (1/N) Σ_edges ‖z_reg[first] − z_reg[second]‖² ],
  z_reg[m] = norm_factor[m] · z[m], over N = 100000 nodes with 48 features and 1600000 edges.

  The reference differentiates the loss by reverse mode: every edge e sends (diff_e · w + w · diff_e), w = 1/N, to the
  row of its first endpoint and the negative of it to the row of its second, the received rows are scaled by
  norm_factor and by the reference's own coefficient a = f32(0.1), and the result is z minus that. The kernel instead
  counts the edge ends at each node (deg), sums the far endpoints' rows of z_reg (S1 over the edges that start at the
  node, S2 over those that end there) and computes z − c · norm_factor · (deg · z_reg − S1 − S2) in one pass over the
  nodes, z_reg itself produced by a first pass. Since Σ_{e at n} (z_reg[n] − z_reg[far e]) = deg_n · z_reg[n] − Σ z_reg[far e],
  the two agree on real inputs exactly when c = a · 2 · w; the kernel's folded literal is named that closed form of
  the reference's two literals. Distributing the products over the sums needs every input finite, and reading an edge's
  endpoints as rows needs every index word inside the node range: both are the precondition.
-/
import proofs.«419742_j2989297238461_3_alg».proof.Defs
import proofs.«419742_j2989297238461_3_alg».proof.Proof.Gen.Kernel
import proofs.«419742_j2989297238461_3_alg».proof.Proof.Gen.Kernel.Skeleton
import proofs.«419742_j2989297238461_3_alg».proof.Proof.Gen.Kernel.Launch
import proofs.«419742_j2989297238461_3_alg».proof.Proof.Gen.Kernel.Points
import proofs.«419742_j2989297238461_3_alg».proof.Proof.Gen.Kernel.Frame
import proofs.«419742_j2989297238461_3_alg».proof.Proof.Gen.KernelIdeal
import proofs.«419742_j2989297238461_3_alg».proof.Proof.Gen.KernelIdeal.Skeleton
import proofs.«419742_j2989297238461_3_alg».proof.Proof.Gen.KernelIdeal.Launch
import proofs.«419742_j2989297238461_3_alg».proof.Proof.Gen.KernelIdeal.Points
import proofs.«419742_j2989297238461_3_alg».proof.Proof.Gen.KernelIdeal.Frame
import proofs.«419742_j2989297238461_3_alg».proof.Proof.Gen.ReferenceIdeal
import proofs.«419742_j2989297238461_3_alg».proof.Proof.Gen.ReferenceIdeal.Run
import proofs.«419742_j2989297238461_3_alg».proof.Proof.Gen.ReferenceIdeal.Read
import proofs.«419742_j2989297238461_3_alg».proof.Proof.Gen.Pre_finite_inputs
import proofs.«419742_j2989297238461_3_alg».proof.Proof.KernelRun
import proofs.«419742_j2989297238461_3_alg».proof.Proof.KernelValue
import proofs.«419742_j2989297238461_3_alg».proof.Proof.RefValue
import proofs.«419742_j2989297238461_3_alg».proof.Proof.Algebra
import proofs.«419742_j2989297238461_3_alg».proof.Proof.PreDecode
import proofs.«419742_j2989297238461_3_alg».proof.Proof.Consts
import Idealize.ShloMosaic.Adequacy
import Idealize.ShloMosaic.Init
import Mathlib.Tactic.NormNum

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the ideal pass: the folded coefficient denotes f32(0.1) · 2 / 100000. -/
theorem preserves : Cert.preserves_Kernel_KernelIdeal :=
  IdealRules.named_const.statement Cert.KernelIdeal.κ "coeff_times_2_over_n" .f32 0x360637BD#32
    ((13421773 / 6710886400000 : ℝ) : EReal) rfl

/-- On finite inputs with every index word in the node range the two programs end with the same array: the
    reference's reverse-mode formula and the kernel's degree formula are one real number at every entry. -/
theorem algebraic : Cert.algebraic_KernelIdeal_ReferenceIdeal := by
  intro m ρ m' ρ' hpre hagree
  refine ⟨fun c => Cert.KernelIdeal.Gen.W6 m ρ c (Proc.devRef .tc Cert.KernelIdeal.main_v22),
    Cert.KernelIdeal.ResultRun.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.2.1, (hagree c).2.2.2]
  obtain ⟨hz, hnf, hr⟩ := Cert.PreDecode.of_pre _ _ _ _ (hpre c)
  funext i
  obtain ⟨n, d, rfl⟩ : ∃ (n : Fin 100000) (d : Fin 48), i = ix2 n d := ⟨i 0, i 1, eq_ix2 i⟩
  rw [Cert.ReferenceIdeal.RefValue.result_eq _ _ _ hr n d, Cert.Consts.ofBits_tenth, Cert.Consts.inv_nodes,
    Cert.LapSpec.forms_agree _ _ _ hz hnf _ _ (13421773 / 6710886400000) (by norm_num) n d]
  exact (Cert.KernelIdeal.Hand.kernel_result m ρ c hr n d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
